-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x2048 : Shape := ⟨2, ![8, 2048]⟩
abbrev S512x512 : Shape := ⟨2, ![512, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S8x2048x512 .f32) (main_arg1 : FVec F S8x2048 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048 .f32 := Host.absf main_arg1
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x2048x512 : Shape := ⟨3, ![8, 2048, 512]⟩
abbrev S8x2048 : Shape := ⟨2, ![8, 2048]⟩
abbrev S512x512 : Shape := ⟨2, ![512, 512]⟩
abbrev S512 : Shape := ⟨1, ![512]⟩
abbrev S512x1024 : Shape := ⟨2, ![512, 1024]⟩
abbrev S1x512 : Shape := ⟨2, ![1, 512]⟩
abbrev S1024 : Shape := ⟨1, ![1024]⟩
abbrev S1x1024 : Shape := ⟨2, ![1, 1024]⟩
abbrev S_ : Shape := ⟨0, ![]⟩
abbrev S8x1x2048 : Shape := ⟨3, ![8, 1, 2048]⟩
abbrev S1x2048x512 : Shape := ⟨3, ![1, 2048, 512]⟩
abbrev S1x1x2048 : Shape := ⟨3, ![1, 1, 2048]⟩
abbrev S1x1024x512 : Shape := ⟨3, ![1, 1024, 512]⟩
abbrev S2048x512 : Shape := ⟨2, ![2048, 512]⟩
abbrev S1024x1 : Shape := ⟨2, ![1024, 1]⟩
abbrev S1024x512 : Shape := ⟨2, ![1024, 512]⟩
abbrev S1x512x512 : Shape := ⟨3, ![1, 512, 512]⟩
abbrev S1x1x512 : Shape := ⟨3, ![1, 1, 512]⟩

abbrev nBuf : Space → Nat
  | .hbm => 31
  | .vmem => 15
  | .smem => 0
  | _ => 0

abbrev bufTy : (tb : Table) → Fin (tcTables nBuf tb) → BufTy
  | .hbm, ⟨0, _⟩ => ⟨S8x2048x512, .f32⟩
  | .hbm, ⟨1, _⟩ => ⟨S8x2048, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .bf16⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .bf16⟩
  | .hbm, ⟨14, _⟩ => ⟨S512x1024, .bf16⟩
  | .hbm, ⟨15, _⟩ => ⟨S1x512, .f32⟩
  | .hbm, ⟨16, _⟩ => ⟨S1024, .f32⟩
  | .hbm, ⟨17, _⟩ => ⟨S1x1024, .f32⟩
  | .hbm, ⟨18, _⟩ => ⟨S8x2048, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x1x2048, .f32⟩
  | .hbm, ⟨30, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .bf16⟩
  | .local _ .vmem, ⟨3, _⟩ => ⟨S512x1024, .bf16⟩
  | .local _ .vmem, ⟨4, _⟩ => ⟨S1x512, .f32⟩
  | .local _ .vmem, ⟨5, _⟩ => ⟨S1x1024, .f32⟩
  | .local _ .vmem, ⟨6, _⟩ => ⟨S1x1x2048, .f32⟩
  | .local _ .vmem, ⟨7, _⟩ => ⟨S1x1x2048, .f32⟩
  | .local _ .vmem, ⟨8, _⟩ => ⟨S1x1024x512, .f32⟩
  | .local _ .vmem, ⟨9, _⟩ => ⟨S1x1024x512, .f32⟩
  | .local _ .vmem, ⟨10, _⟩ => ⟨S2048x512, .bf16⟩
  | .local _ .vmem, ⟨11, _⟩ => ⟨S2048x512, .bf16⟩
  | .local _ .vmem, ⟨12, _⟩ => ⟨S1024x1, .f32⟩
  | .local _ .vmem, ⟨13, _⟩ => ⟨S1024x1, .f32⟩
  | .local _ .vmem, ⟨14, _⟩ => ⟨S1024x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S512x512_S512x512_1_0 : S512x512.Transposes [1, 0] S512x512
  bitsLt_bf16_f32 : FTy.bits .bf16 < FTy.bits .f32
  concatenates_S512x512_S512x512_S512x1024_d1 : Shape.Concatenates [S512x512, S512x512] S512x1024 1
  shapeCasts_S512_S1x512 : S512.ShapeCasts S1x512
  concatenates_S512_S512_S1024_d0 : Shape.Concatenates [S512, S512] S1024 0
  shapeCasts_S1024_S1x1024 : S1024.ShapeCasts S1x1024
  bcast_S_S8x2048 : S_.BroadcastsInDim S8x2048 (![] : Fin 0 → Fin S8x2048.rank)
  shapeCasts_S8x2048_S8x1x2048 : S8x2048.ShapeCasts S8x1x2048
  inb_S1x2048x512_S1x512x512_0_0_0 : ∀ a, (![0, 0, 0] : Fin 3 → Nat) a + S1x512x512.size a ≤ S1x2048x512.size a
  h_S1x512x512 : 0 < S1x512x512.numel
  shapeCasts_S1x512x512_S512x512 : S1x512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x512 : S512x1024.Slices ![0, 0] S512x512
  inb_S2048x512_S512x512_0_0 : ∀ a, (![0, 0] : Fin 2 → Nat) a + S512x512.size a ≤ S2048x512.size a
  h_S512x512 : 0 < S512x512.numel
  shapeCasts_S512x512_S512x512 : S512x512.ShapeCasts S512x512
  packedbf16_S2048x512_S512x512_0_0 : (Rect.unit (s := S2048x512) ![0, 0] S512x512.size inb_S2048x512_S512x512_0_0).PackedRows (EltTy.packing .bf16)
  slices_S512x1024_o0_512_S512x512 : S512x1024.Slices ![0, 512] S512x512
  inb_S1x2048x512_S1x512x512_0_512_0 : ∀ a, (![0, 512, 0] : Fin 3 → Nat) a + S1x512x512.size a ≤ S1x2048x512.size a
  inb_S2048x512_S512x512_512_0 : ∀ a, (![512, 0] : Fin 2 → Nat) a + S512x512.size a ≤ S2048x512.size a
  packedbf16_S2048x512_S512x512_512_0 : (Rect.unit (s := S2048x512) ![512, 0] S512x512.size inb_S2048x512_S512x512_512_0).PackedRows (EltTy.packing .bf16)
  inb_S1x2048x512_S1x512x512_0_1024_0 : ∀ a, (![0, 1024, 0] : Fin 3 → Nat) a + S1x512x512.size a ≤ S1x2048x512.size a
  inb_S2048x512_S512x512_1024_0 : ∀ a, (![1024, 0] : Fin 2 → Nat) a + S512x512.size a ≤ S2048x512.size a
  packedbf16_S2048x512_S512x512_1024_0 : (Rect.unit (s := S2048x512) ![1024, 0] S512x512.size inb_S2048x512_S512x512_1024_0).PackedRows (EltTy.packing .bf16)
  inb_S1x2048x512_S1x512x512_0_1536_0 : ∀ a, (![0, 1536, 0] : Fin 3 → Nat) a + S1x512x512.size a ≤ S1x2048x512.size a
  inb_S2048x512_S512x512_1536_0 : ∀ a, (![1536, 0] : Fin 2 → Nat) a + S512x512.size a ≤ S2048x512.size a
  packedbf16_S2048x512_S512x512_1536_0 : (Rect.unit (s := S2048x512) ![1536, 0] S512x512.size inb_S2048x512_S512x512_1536_0).PackedRows (EltTy.packing .bf16)
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1x2048_S1x1x512_0_0_0 : ∀ a, (![0, 0, 0] : Fin 3 → Nat) a + S1x1x512.size a ≤ S1x1x2048.size a
  h_S1x1x512 : 0 < S1x1x512.numel
  shapeCasts_S1x1x512_S1x512 : S1x1x512.ShapeCasts S1x512
  transposes_S512x512_p1_0_S512x512 : S512x512.Transposes [1, 0] S512x512
  reduces_S1024x512_S1024 : S1024x512.Reduces [1] S1024
  shapeCasts_S1024_S1024x1 : S1024.ShapeCasts S1024x1
  broadcasts_S1024x1_S1024x512 : S1024x1.Broadcasts S1024x512
  inb_S1x1x2048_S1x1x512_0_0_512 : ∀ a, (![0, 0, 512] : Fin 3 → Nat) a + S1x1x512.size a ≤ S1x1x2048.size a
  inb_S1x1x2048_S1x1x512_0_0_1024 : ∀ a, (![0, 0, 1024] : Fin 3 → Nat) a + S1x1x512.size a ≤ S1x1x2048.size a
  inb_S1x1x2048_S1x1x512_0_0_1536 : ∀ a, (![0, 0, 1536] : Fin 3 → Nat) a + S1x1x512.size a ≤ S1x1x2048.size a
  inb_S1x1024x512_S1x1024x512_0_0_0 : ∀ a, (![0, 0, 0] : Fin 3 → Nat) a + S1x1024x512.size a ≤ S1x1024x512.size a
  shapeCasts_S1024x512_S1x1024x512 : S1024x512.ShapeCasts S1x1024x512
  dot_S512x512_S512x1024_S512x1024_1_0_0_1_n_n_wf : DotDims.WF S512x512 S512x1024 S512x1024 [1] [0] [0] [1] [] []
  dot_S1024x512_S512x512_S1024x512_1_0_0_1_n_n_wf : DotDims.WF S1024x512 S512x512 S1024x512 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x2048.size a
  hwx0_5 : ∀ i : grid0.Coords, EltTy.bits .f32 = 32 ∨ (Rect.block (s := S8x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S8x2048x512.size a
  hwx0_6 : ∀ i : grid0.Coords, EltTy.bits .f32 = 32 ∨ (Rect.block (s := S8x2048x512) S1x1024x512.size (cc0_transform_6 i) (hinb0_6 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048 : Shape := ⟨2, ![8, 2048]⟩
abbrev S512x512 : Shape := ⟨2, ![512, 512]⟩
abbrev S512 : Shape := ⟨1, ![512]⟩
abbrev S1x1x512 : Shape := ⟨3, ![1, 1, 512]⟩
abbrev S8x2048x2048 : Shape := ⟨3, ![8, 2048, 2048]⟩
abbrev S_ : Shape := ⟨0, ![]⟩
abbrev S8x1x2048 : Shape := ⟨3, ![8, 1, 2048]⟩
abbrev S8x2048x1 : Shape := ⟨3, ![8, 2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S8x2048x512, .f32⟩
  | .hbm, ⟨9, _⟩ => ⟨S1x1x512, .f32⟩
  | .hbm, ⟨10, _⟩ => ⟨S8x2048x512, .f32⟩
  | .hbm, ⟨11, _⟩ => ⟨S8x2048x512, .f32⟩
  | .hbm, ⟨12, _⟩ => ⟨S8x2048x512, .f32⟩
  | .hbm, ⟨13, _⟩ => ⟨S1x1x512, .f32⟩
  | .hbm, ⟨14, _⟩ => ⟨S8x2048x512, .f32⟩
  | .hbm, ⟨15, _⟩ => ⟨S8x2048x512, .f32⟩
  | .hbm, ⟨16, _⟩ => ⟨S8x2048x512, .f32⟩
  | .hbm, ⟨17, _⟩ => ⟨S1x1x512, .f32⟩
  | .hbm, ⟨18, _⟩ => ⟨S8x2048x512, .f32⟩
  | .hbm, ⟨19, _⟩ => ⟨S8x2048x512, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x2048 : S_.BroadcastsInDim S8x2048x2048 (![] : Fin 0 → Fin S8x2048x2048.rank)
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_1_01_0_n_n_wf : DotDims.WF S8x2048x512 S512x512 S8x2048x512 [2] [1] [0, 1] [0] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_1_01_0_n_n : DotDims S8x2048x512 S512x512 S8x2048x512 where
  lhsContracting := [2]
  rhsContracting := [1]
  lhsNonContracting := [0, 1]
  rhsNonContracting := [0]
  lhsBatch := []
  rhsBatch := []
  wf := dot_S8x2048x512_S512x512_S8x2048x512_2_1_01_0_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.LibOnlineSoftmax.lean ====
/-
  The online softmax, one block of keys at a time, is the softmax.

  A row of attention scores s k and values v k is folded a block at a time into a running maximum m, a running
  normaliser l and a running weighted sum a: a block replaces m by m' = max m (max over the block of s), l by
  exp (m - m') * l + sum of exp (s k - m'), and a by exp (m - m') * a + sum of exp (s k - m') * v k; the result is
  a / l. Over the extended reals, when every score and value is a real number and the starting maximum is any real
  number, the state after the blocks seen so far is l = exp (-m) * L, a = exp (-m) * A with L = sum of exp (s k) and
  A = sum of exp (s k) * v k over the keys seen: the factor exp (-m) is never zero, so it cancels in the quotient and
  a / l = A / L, whatever the running maximum was. The two-pass softmax, the sum of
  (exp (s k - M) / sum of exp (s j - M)) * v k, is the same quotient A / L for the same reason, at any real M.
-/
import Idealize.ShloMosaic.PureOps.Ideal.Laws

noncomputable section

open scoped BigOperators

namespace Cert.Lib.OnlineSoftmax

open Idealize.ShloMosaic

/-! ## Real sums inside the extended reals -/

/-- The embedding of the reals commutes with finite sums. -/
theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The embedding of the reals commutes with the maximum of two numbers. -/
theorem coe_max (a b : ℝ) : max (a : EReal) (b : EReal) = ((max a b : ℝ) : EReal) :=
  (EReal.coe_strictMono.monotone.map_max).symm

/-- A running maximum of real numbers, started at the bottom element or at a real number, is the bottom element or a
    real number. -/
theorem fold_max_real_or_bot {ι : Type*} (S : Finset ι) (f : ι → ℝ) (b : EReal) (hb : b = ⊥ ∨ ∃ r : ℝ, b = r) :
    (S.fold max b fun k => (f k : EReal)) = ⊥ ∨ ∃ r : ℝ, (S.fold max b fun k => (f k : EReal)) = r := by
  classical
  induction S using Finset.induction_on with
  | empty => simpa using hb
  | insert a S ha ih =>
    rw [Finset.fold_insert ha]
    rcases ih with h | ⟨r, h⟩
    · exact Or.inr ⟨f a, by rw [h, max_bot_right]⟩
    · exact Or.inr ⟨max (f a) r, by rw [h, coe_max]⟩

/-- Over a nonempty set it is a real number. -/
theorem fold_max_real {ι : Type*} (S : Finset ι) (hS : S.Nonempty) (f : ι → ℝ) (b : EReal) (hb : b = ⊥ ∨ ∃ r : ℝ, b = r) :
    ∃ r : ℝ, (S.fold max b fun k => (f k : EReal)) = r := by
  classical
  obtain ⟨a, ha⟩ := hS
  rw [← Finset.insert_erase ha, Finset.fold_insert (Finset.notMem_erase a S)]
  rcases fold_max_real_or_bot (S.erase a) f b hb with h | ⟨r, h⟩
  · exact ⟨f a, by rw [h, max_bot_right]⟩
  · exact ⟨max (f a) r, by rw [h, coe_max]⟩

/-- The maximum of a real number and such a running maximum is a real number. -/
theorem max_coe_fold_real {ι : Type*} (S : Finset ι) (f : ι → ℝ) (m : ℝ) :
    ∃ r : ℝ, max (m : EReal) (S.fold max ⊥ fun k => (f k : EReal)) = r := by
  rcases fold_max_real_or_bot S f ⊥ (Or.inl rfl) with h | ⟨r, h⟩
  · exact ⟨m, by rw [h, max_bot_right]⟩
  · exact ⟨max m r, by rw [h, coe_max]⟩

/-! ## One block of the online softmax -/

variable {ι : Type*} [Fintype ι]

/-- The running maximum after a block with scores s. -/
def stepMax (m : EReal) (s : ι → EReal) : EReal := max m (Finset.univ.fold max ⊥ s)

/-- The running normaliser after the block. -/
def stepNorm (m l : EReal) (s : ι → EReal) : EReal :=
  Ideal.exp (m - stepMax m s) * l + ∑ k, Ideal.exp (s k - stepMax m s)

/-- The running weighted sum after the block, for values v. -/
def stepAcc (m a : EReal) (s v : ι → EReal) : EReal :=
  Ideal.exp (m - stepMax m s) * a + ∑ k, Ideal.exp (s k - stepMax m s) * v k

/-- The state (m, l, a) stands for the sums L = sum of exp s and A = sum of exp s * v over the keys seen: m is a real
    number, l = exp (-m) * L and a = exp (-m) * A. -/
def Stands (m l a : EReal) (L A : ℝ) : Prop :=
  ∃ mr : ℝ, m = mr ∧ l = ((Real.exp (-mr) * L : ℝ) : EReal) ∧ a = ((Real.exp (-mr) * A : ℝ) : EReal)

/-- Before any key: any real starting maximum, with l = 0 and a = 0, stands for the empty sums. -/
theorem stands_init (m0 : ℝ) : Stands (m0 : EReal) 0 0 0 0 :=
  ⟨m0, rfl, by simp, by simp⟩

/-- A block of real scores s and real values v adds its keys to both sums. -/
theorem stands_step {m l a : EReal} {L A : ℝ} (h : Stands m l a L A) (s v : ι → ℝ) :
    Stands (stepMax m fun k => (s k : EReal)) (stepNorm m l fun k => (s k : EReal))
      (stepAcc m a (fun k => (s k : EReal)) fun k => (v k : EReal))
      (L + ∑ k, Real.exp (s k)) (A + ∑ k, Real.exp (s k) * v k) := by
  obtain ⟨mr, rfl, rfl, rfl⟩ := h
  obtain ⟨mr', hm'⟩ := max_coe_fold_real Finset.univ s mr
  have hM : stepMax (mr : EReal) (fun k => (s k : EReal)) = mr' := hm'
  refine ⟨mr', hM, ?_, ?_⟩
  · unfold stepNorm
    rw [hM]
    simp only [← EReal.coe_sub, Ideal.exp_coe, ← EReal.coe_mul, ← coe_sum, ← EReal.coe_add]
    congr 1
    have e1 : Real.exp (mr - mr') * (Real.exp (-mr) * L) = Real.exp (-mr') * L := by
      rw [← mul_assoc, ← Real.exp_add]; congr 2; ring
    have e2 : ∀ k, Real.exp (s k - mr') = Real.exp (-mr') * Real.exp (s k) := fun k => by
      rw [← Real.exp_add]; congr 1; ring
    rw [e1, Finset.sum_congr rfl fun k _ => e2 k, ← Finset.mul_sum, mul_add]
  · unfold stepAcc
    rw [hM]
    simp only [← EReal.coe_sub, Ideal.exp_coe, ← EReal.coe_mul, ← coe_sum, ← EReal.coe_add]
    congr 1
    have e1 : Real.exp (mr - mr') * (Real.exp (-mr) * A) = Real.exp (-mr') * A := by
      rw [← mul_assoc, ← Real.exp_add]; congr 2; ring
    have e2 : ∀ k, Real.exp (s k - mr') * v k = Real.exp (-mr') * (Real.exp (s k) * v k) := fun k => by
      rw [← mul_assoc, ← Real.exp_add]; congr 2; ring
    rw [e1, Finset.sum_congr rfl fun k _ => e2 k, ← Finset.mul_sum, mul_add]

/-- The quotient of the weighted sum by the normaliser is A / L, when some key has been seen. -/
theorem stands_div {m l a : EReal} {L A : ℝ} (h : Stands m l a L A) (hL : 0 < L) :
    Ideal.div a l = ((A / L : ℝ) : EReal) := by
  obtain ⟨mr, rfl, rfl, rfl⟩ := h
  have hne : Real.exp (-mr) * L ≠ 0 := mul_ne_zero (Real.exp_pos _).ne' hL.ne'
  rw [Ideal.div_coe hne, ← EReal.coe_mul]
  congr 1
  have : Real.exp (-mr) ≠ 0 := (Real.exp_pos _).ne'
  field_simp

/-! ## The two-pass softmax -/

/-- The two-pass softmax with real scores, real values and any real shift M: the weights exp (s k - M) divided by
    their sum from zero, times the values, summed, is A / L. -/
theorem two_pass {κ : Type*} [Fintype κ] [Nonempty κ] (s v : κ → ℝ) (M : ℝ) :
    ∑ k, Ideal.div (Ideal.exp ((s k : EReal) - (M : EReal))) (0 + ∑ j, Ideal.exp ((s j : EReal) - (M : EReal))) * (v k : EReal)
      = (((∑ k, Real.exp (s k) * v k) / ∑ k, Real.exp (s k) : ℝ) : EReal) := by
  have hpos : 0 < ∑ j, Real.exp (s j - M) := Finset.sum_pos (fun j _ => Real.exp_pos _) Finset.univ_nonempty
  simp only [← EReal.coe_sub, Ideal.exp_coe, ← coe_sum, zero_add]
  simp only [Ideal.div_coe hpos.ne', ← EReal.coe_mul, ← coe_sum]
  congr 1
  have e2 : ∀ k, Real.exp (s k - M) = Real.exp (-M) * Real.exp (s k) := fun k => by
    rw [← Real.exp_add]; congr 1; ring
  have hL : 0 < ∑ k, Real.exp (s k) := Finset.sum_pos (fun j _ => Real.exp_pos _) Finset.univ_nonempty
  rw [Finset.sum_congr rfl fun k _ => e2 k, ← Finset.mul_sum, Finset.sum_div]
  refine Finset.sum_congr rfl fun k _ => ?_
  rw [e2 k]
  have : Real.exp (-M) ≠ 0 := (Real.exp_pos _).ne'
  field_simp

end Cert.Lib.OnlineSoftmax

end
-- ==== Proof.Spec.lean ====
/-
  What the attention layer computes, as one function of its eight argument arrays, entry by entry.

  For batch b, a row r has the three projections proj x W β b r d = (sum over c of x (b, r, c) * W (d, c)) + β d with
  the query, key and value weights. The score of key k for query q is the dot product of the query row with the key
  row, times the gate of the key, logistic (e (b, k)), times the scale constant. The result at (b, q, d) is the
  softmax-weighted average of the value rows: (sum over k of exp (score k) * value (k, d)) / (sum over k of exp (score k)),
  a quotient of real numbers, stated here through the real parts of the scores and values (which are real numbers
  whenever the arguments are).
-/
import Idealize.ShloMosaic.PureOps.Ideal.Laws
import Idealize.ShloMosaic.Lib.ValueIdx
import proofs.«414030_j51513837748782_3_alg».proof.Proof.LibOnlineSoftmax

noncomputable section

open scoped BigOperators

namespace Cert.Spec

open Idealize.ShloMosaic Idealize.ShloMosaic.ValueIdx Cert.Lib.OnlineSoftmax

abbrev SX : Shape := ⟨3, ![8, 2048, 512]⟩
abbrev SE : Shape := ⟨2, ![8, 2048]⟩
abbrev SW : Shape := ⟨2, ![512, 512]⟩
abbrev SB : Shape := ⟨1, ![512]⟩

/-! ## Real numbers among the extended reals -/

/-- An extended real that is a real number. -/
def IsReal (a : EReal) : Prop := ∃ r : ℝ, a = r

theorem IsReal.coe (r : ℝ) : IsReal (r : EReal) := ⟨r, rfl⟩
theorem IsReal.eq_coe_toReal {a : EReal} (h : IsReal a) : a = (a.toReal : EReal) := by
  obtain ⟨r, rfl⟩ := h; rw [EReal.toReal_coe]
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.exp {a : EReal} (ha : IsReal a) : IsReal (Ideal.exp a) := by
  obtain ⟨r, rfl⟩ := ha; exact ⟨Real.exp r, rfl⟩
theorem IsReal.sum {ι : Type*} (S : Finset ι) (f : ι → EReal) (h : ∀ k, IsReal (f k)) : IsReal (∑ k ∈ S, f k) := by
  choose g hg using h
  exact ⟨∑ k ∈ S, g k, by rw [coe_sum]; exact Finset.sum_congr rfl fun k _ => hg k⟩

/-! ## The layer -/

/-- A projection: row r of batch b times the weight matrix's row d, plus the bias. -/
def proj (x : SX.Idx → EReal) (W : SW.Idx → EReal) (β : SB.Idx → EReal) (b : Fin 8) (r : Fin 2048) (d : Fin 512) : EReal :=
  (∑ c : Fin 512, x (ix3 b r c) * W (ix2 d c)) + β (ix1 d)

/-- The gate of key k: the logistic function of its eigenvalue, written as the programs compute it, 1 / (1 + exp (-e)). -/
def gate (e : SE.Idx → EReal) (b : Fin 8) (k : Fin 2048) : EReal :=
  Ideal.div (Ideal.ofBits .f32 0x3F800000#32) (Ideal.ofBits .f32 0x3F800000#32 + Ideal.exp (-(e (ix2 b k))))

/-- The scale constant both programs multiply the scores by. -/
def scale : EReal := Ideal.ofBits .f32 0x3D3504F3#32

/-- The dot product of query row q with key row k. -/
def qk (x : SX.Idx → EReal) (Wq : SW.Idx → EReal) (bq : SB.Idx → EReal) (Wk : SW.Idx → EReal) (bk : SB.Idx → EReal)
    (b : Fin 8) (q k : Fin 2048) : EReal :=
  ∑ d : Fin 512, proj x Wq bq b q d * proj x Wk bk b k d

/-- The score of key k for query q. -/
def score (x : SX.Idx → EReal) (e : SE.Idx → EReal) (Wq : SW.Idx → EReal) (bq : SB.Idx → EReal) (Wk : SW.Idx → EReal)
    (bk : SB.Idx → EReal) (b : Fin 8) (q k : Fin 2048) : EReal :=
  qk x Wq bq Wk bk b q k * (gate e b k * scale)

/-- The result: the softmax-weighted average of the value rows. -/
def G (x : SX.Idx → EReal) (e : SE.Idx → EReal) (Wq : SW.Idx → EReal) (bq : SB.Idx → EReal) (Wk : SW.Idx → EReal)
    (bk : SB.Idx → EReal) (Wv : SW.Idx → EReal) (bv : SB.Idx → EReal) : SX.Idx → EReal := fun i =>
  (((∑ k : Fin 2048, Real.exp (score x e Wq bq Wk bk (i 0) (i 1) k).toReal * (proj x Wv bv (i 0) k (i 2)).toReal)
      / ∑ k : Fin 2048, Real.exp (score x e Wq bq Wk bk (i 0) (i 1) k).toReal : ℝ) : EReal)

/-! ## Everything is a real number when the arguments are -/

theorem proj_real {x : SX.Idx → EReal} {W : SW.Idx → EReal} {β : SB.Idx → EReal} (hx : ∀ i, IsReal (x i))
    (hW : ∀ i, IsReal (W i)) (hβ : ∀ i, IsReal (β i)) (b : Fin 8) (r : Fin 2048) (d : Fin 512) : IsReal (proj x W β b r d) :=
  (IsReal.sum _ _ fun c => (hx _).mul (hW _)).add (hβ _)

theorem one_real : Ideal.ofBits .f32 0x3F800000#32 = ((1 : ℝ) : EReal) := by
  simp [Ideal.ofBits, Ideal.ieee, -EReal.coe_mul]; norm_num

/-- A bit pattern whose exponent field is not all ones denotes a real number. -/
theorem ieee_real (e m : Nat) {w : Nat} (b : BitVec w) (h : (b.extractLsb' m e).toNat ≠ 2 ^ e - 1) :
    IsReal (Ideal.ieee e m b) := by
  unfold Ideal.ieee
  dsimp only
  rw [if_neg h]
  split_ifs <;> exact ⟨_, rfl⟩

theorem scale_real : IsReal scale := by
  show IsReal (Ideal.ieee 8 23 (0x3D3504F3#32 : BitVec 32))
  exact ieee_real 8 23 _ (by decide)

/-- The kernel's starting maximum, the finite stand-in it uses for minus infinity, is a real number. -/
theorem start_real : IsReal (Ideal.ofBits .f32 0xFF333332#32) := by
  show IsReal (Ideal.ieee 8 23 (0xFF333332#32 : BitVec 32))
  exact ieee_real 8 23 _ (by decide)

theorem gate_real {e : SE.Idx → EReal} (he : ∀ i, IsReal (e i)) (b : Fin 8) (k : Fin 2048) : IsReal (gate e b k) := by
  obtain ⟨r, hr⟩ := he (ix2 b k)
  unfold gate
  rw [hr, one_real, ← EReal.coe_neg, Ideal.exp_coe, ← EReal.coe_add,
    Ideal.div_coe (by positivity : (1 + Real.exp (-r)) ≠ 0), ← EReal.coe_mul]
  exact ⟨_, rfl⟩

theorem score_real {x : SX.Idx → EReal} {e : SE.Idx → EReal} {Wq Wk : SW.Idx → EReal} {bq bk : SB.Idx → EReal}
    (hx : ∀ i, IsReal (x i)) (he : ∀ i, IsReal (e i)) (hWq : ∀ i, IsReal (Wq i)) (hbq : ∀ i, IsReal (bq i))
    (hWk : ∀ i, IsReal (Wk i)) (hbk : ∀ i, IsReal (bk i)) (b : Fin 8) (q k : Fin 2048) :
    IsReal (score x e Wq bq Wk bk b q k) :=
  (IsReal.sum _ _ fun d => (proj_real hx hWq hbq b q d).mul (proj_real hx hWk hbk b k d)).mul ((gate_real he b k).mul scale_real)

/-! ## The keys in four blocks of 512 -/

/-- Key number k' of block j. -/
def key (j : Fin 4) (k' : Fin 512) : Fin 2048 := ⟨512 * j.val + k'.val, by have := j.isLt; have := k'.isLt; omega⟩

/-- A sum over the 2048 keys is the sum of the four blocks' sums. -/
theorem sum_keys {M : Type*} [AddCommMonoid M] (f : Fin 2048 → M) :
    ∑ k : Fin 2048, f k = ∑ k', f (key 0 k') + ∑ k', f (key 1 k') + ∑ k', f (key 2 k') + ∑ k', f (key 3 k') := by
  have e : ∑ k : Fin 2048, f k = ∑ p : Fin 4 × Fin 512, f (key p.1 p.2) := by
    rw [← Equiv.sum_comp (finProdFinEquiv (m := 4) (n := 512))]
    refine Finset.sum_congr rfl fun p _ => congrArg f (Fin.ext ?_)
    show p.2.val + 512 * p.1.val = 512 * p.1.val + p.2.val
    omega
  rw [e, Fintype.sum_prod_type, Fin.sum_univ_four]

/-- The online softmax over the four blocks, from any real starting maximum with normaliser and weighted sum zero,
    divides out to the softmax-weighted average over all keys. -/
theorem online_four (s v : Fin 2048 → EReal) (hs : ∀ k, IsReal (s k)) (hv : ∀ k, IsReal (v k)) (m0 : EReal) (hm0 : IsReal m0) :
    let s0 := fun k' => s (key 0 k'); let s1 := fun k' => s (key 1 k'); let s2 := fun k' => s (key 2 k'); let s3 := fun k' => s (key 3 k')
    let v0 := fun k' => v (key 0 k'); let v1 := fun k' => v (key 1 k'); let v2 := fun k' => v (key 2 k'); let v3 := fun k' => v (key 3 k')
    let m1 := stepMax m0 s0; let l1 := stepNorm m0 0 s0; let a1 := stepAcc m0 0 s0 v0
    let m2 := stepMax m1 s1; let l2 := stepNorm m1 l1 s1; let a2 := stepAcc m1 a1 s1 v1
    let m3 := stepMax m2 s2; let l3 := stepNorm m2 l2 s2; let a3 := stepAcc m2 a2 s2 v2
    Ideal.div (stepAcc m3 a3 s3 v3) (stepNorm m3 l3 s3)
      = (((∑ k, Real.exp (s k).toReal * (v k).toReal) / ∑ k, Real.exp (s k).toReal : ℝ) : EReal) := by
  intro s0 s1 s2 s3 v0 v1 v2 v3 m1 l1 a1 m2 l2 a2 m3 l3 a3
  obtain ⟨mr, rfl⟩ := hm0
  have hs' : ∀ k, s k = ((s k).toReal : EReal) := fun k => (hs k).eq_coe_toReal
  have hv' : ∀ k, v k = ((v k).toReal : EReal) := fun k => (hv k).eq_coe_toReal
  have h0 := stands_init mr
  have h1 := stands_step h0 (fun k' => (s (key 0 k')).toReal) (fun k' => (v (key 0 k')).toReal)
  have h2 := stands_step h1 (fun k' => (s (key 1 k')).toReal) (fun k' => (v (key 1 k')).toReal)
  have h3 := stands_step h2 (fun k' => (s (key 2 k')).toReal) (fun k' => (v (key 2 k')).toReal)
  have h4 := stands_step h3 (fun k' => (s (key 3 k')).toReal) (fun k' => (v (key 3 k')).toReal)
  simp only [← hs', ← hv'] at h1 h2 h3 h4
  have hL : 0 < ∑ k, Real.exp (s k).toReal := Finset.sum_pos (fun _ _ => Real.exp_pos _) Finset.univ_nonempty
  have := stands_div h4 (by rw [zero_add, ← sum_keys (fun k => Real.exp (s k).toReal)]; exact hL)
  rw [zero_add, zero_add, ← sum_keys (fun k => Real.exp (s k).toReal),
    ← sum_keys (fun k => Real.exp (s k).toReal * (v k).toReal)] at this
  exact this

/-- The two-pass softmax over all keys with any real shift is the same average. -/
theorem two_pass_keys (s v : Fin 2048 → EReal) (hs : ∀ k, IsReal (s k)) (hv : ∀ k, IsReal (v k)) (M : EReal) (hM : IsReal M) :
    ∑ k, Ideal.div (Ideal.exp (s k - M)) (0 + ∑ j, Ideal.exp (s j - M)) * v k
      = (((∑ k, Real.exp (s k).toReal * (v k).toReal) / ∑ k, Real.exp (s k).toReal : ℝ) : EReal) := by
  obtain ⟨Mr, rfl⟩ := hM
  have hs' : ∀ k, s k = ((s k).toReal : EReal) := fun k => (hs k).eq_coe_toReal
  have hv' : ∀ k, v k = ((v k).toReal : EReal) := fun k => (hv k).eq_coe_toReal
  have := two_pass (fun k => (s k).toReal) (fun k => (v k).toReal) Mr
  simp only [← hs', ← hv'] at this
  exact this

end Cert.Spec

end
-- ==== Proof.Finite.lean ====
/-
  Every argument array is real-valued under the precondition.

  The precondition is the conjunction of eight tests, one per argument array a: every entry x of a has
  max x (-x) below plus infinity. On the extended reals that says x is neither infinity, so x is a real number.
-/
import Idealize.ShloMosaic.PureOps.Ideal.Laws
import Idealize.ShloMosaic.Lib.ValueIdx
import Idealize.ShloMosaic.Lib.ReduceAll
import proofs.«414030_j51513837748782_3_alg».proof.Proof.Gen.Pre_finite_inputs
import proofs.«414030_j51513837748782_3_alg».proof.Proof.Spec

noncomputable section

namespace Cert.Finite

open Idealize.ShloMosaic Idealize.ShloMosaic.ValueIdx Cert.Spec

/-- The bit pattern the tests compare against is plus infinity. -/
theorem inf_bits : Ideal.ofBits .f32 0x7F800000#32 = (⊤ : EReal) := by
  simp [Ideal.ofBits, Ideal.ieee]

/-- An extended real whose absolute value is below plus infinity is a real number. -/
theorem real_of_abs_lt (x : EReal) (h : Ideal.cmp .olt (max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

instance : Subsingleton (⟨0, ![]⟩ : Shape).Idx := ⟨fun a b => funext fun d => d.elim0⟩

/-- One test: if the conjunction over all entries of "the absolute value is below plus infinity" is true, every entry is real. -/
theorem all_real {s : Shape} {axes : List (Fin s.rank)} (a : s.Idx → EReal)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
        (cmpf (F := Ideal) (φ := .f32) .olt (Host.absf (F := Ideal) (φ := .f32) a)
          (broadcastInDim s ![] hb (constant (F := Ideal) ⟨0, ![]⟩ .f32 0x7F800000#32))) init hr hu ix0 = 1#1) :
    ∀ i, IsReal (a i) := by
  intro i
  have := Host.reduce_andi_all _ init hr hu ix0 e i
  exact real_of_abs_lt (a i) this

/-- Under the precondition every entry of every argument array is a real number. -/
theorem real_of_pre [Cert.Pre_finite_inputs.Facts]
    (a0 : (⟨3, ![8, 2048, 512]⟩ : Shape).Idx → EReal) (a1 : (⟨2, ![8, 2048]⟩ : Shape).Idx → EReal)
    (a2 : (⟨2, ![512, 512]⟩ : Shape).Idx → EReal) (a3 : (⟨1, ![512]⟩ : Shape).Idx → EReal)
    (a4 : (⟨2, ![512, 512]⟩ : Shape).Idx → EReal) (a5 : (⟨1, ![512]⟩ : Shape).Idx → EReal)
    (a6 : (⟨2, ![512, 512]⟩ : Shape).Idx → EReal) (a7 : (⟨1, ![512]⟩ : Shape).Idx → EReal)
    (h : Cert.Pre_finite_inputs.fn (F := Ideal) a0 a1 a2 a3 a4 a5 a6 a7 = fun _ => 1#1) :
    (∀ i, Cert.Spec.IsReal (a0 i)) ∧ (∀ i, Cert.Spec.IsReal (a1 i)) ∧ (∀ i, Cert.Spec.IsReal (a2 i)) ∧ (∀ i, Cert.Spec.IsReal (a3 i))
      ∧ (∀ i, Cert.Spec.IsReal (a4 i)) ∧ (∀ i, Cert.Spec.IsReal (a5 i)) ∧ (∀ i, Cert.Spec.IsReal (a6 i)) ∧ (∀ i, Cert.Spec.IsReal (a7 i)) := by
  have h0 := congrFun h ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6, all_real a7 _ _ _ _ e7⟩

end Cert.Finite

end
-- ==== Proof.RefIsSpec.lean ====
/-
  The reference program computes the specification.

  The reference forms the three projections x W^T + beta, the dot products of query rows with key rows, multiplies them
  by the scale constant and then by the gate of the key, 1 / (1 + exp (-e)), and takes the two-pass softmax over the
  2048 keys: it subtracts from every score of a query its maximum over the keys, exponentiates, divides by the sum of
  the exponentials taken from zero, and sums the weights times the value rows. Read entry by entry, each projection is
  the specification's proj, the gated and scaled dot product is its score (the product of the dot product, the scale
  and the gate is reassociated and commuted, which is sound in the extended reals), the maximum over the keys is a
  real number because it is a running maximum, from minus infinity, of the 2048 real scores, and the two-pass softmax
  with any real shift is the softmax-weighted average of the value rows, which is the specification's result.
-/
import proofs.«414030_j51513837748782_3_alg».proof.Proof.Gen.ReferenceIdeal.Read
import proofs.«414030_j51513837748782_3_alg».proof.Proof.Spec
import proofs.«414030_j51513837748782_3_alg».proof.Proof.LibOnlineSoftmax
import Idealize.ShloMosaic.PureOps.Reduce
import Idealize.ShloMosaic.PureOps.Ideal.Laws
import Idealize.ShloMosaic.Lib.ValueIdx

noncomputable section

open scoped BigOperators

namespace Cert.RefIsSpec

open Idealize.ShloMosaic Idealize.ShloMosaic.ValueIdx Cert.ReferenceIdeal Cert.ReferenceIdeal.Read

variable [Cert.ReferenceIdeal.Facts]

/-! ## The index functions of the reading lemmas, at coordinates -/

local macro "idx_rfl" : tactic => `(tactic| (funext a; fin_cases a <;> rfl))

theorem lidx_v0 (b : Fin 8) (r : Fin 2048) (d c : Fin 512) : lidx_main_v0 (ix3 b r d) c = ix3 b r c := by idx_rfl
theorem ridx_v0 (b : Fin 8) (r : Fin 2048) (d c : Fin 512) : ridx_main_v0 (ix3 b r d) c = ix2 d c := by idx_rfl
theorem idx_v1v2 (b : Fin 8) (r : Fin 2048) (d : Fin 512) : idx_main_v1 (idx_main_v2 (ix3 b r d)) = ix1 d := by idx_rfl
theorem lidx_v4 (b : Fin 8) (r : Fin 2048) (d c : Fin 512) : lidx_main_v4 (ix3 b r d) c = ix3 b r c := by idx_rfl
theorem ridx_v4 (b : Fin 8) (r : Fin 2048) (d c : Fin 512) : ridx_main_v4 (ix3 b r d) c = ix2 d c := by idx_rfl
theorem idx_v5v6 (b : Fin 8) (r : Fin 2048) (d : Fin 512) : idx_main_v5 (idx_main_v6 (ix3 b r d)) = ix1 d := by idx_rfl
theorem lidx_v8 (b : Fin 8) (r : Fin 2048) (d c : Fin 512) : lidx_main_v8 (ix3 b r d) c = ix3 b r c := by idx_rfl
theorem ridx_v8 (b : Fin 8) (r : Fin 2048) (d c : Fin 512) : ridx_main_v8 (ix3 b r d) c = ix2 d c := by idx_rfl
theorem idx_v9v10 (b : Fin 8) (r : Fin 2048) (d : Fin 512) : idx_main_v9 (idx_main_v10 (ix3 b r d)) = ix1 d := by idx_rfl
theorem lidx_v12 (b : Fin 8) (q k : Fin 2048) (c : Fin 512) : lidx_main_v12 (ix3 b q k) c = ix3 b q c := by idx_rfl
theorem ridx_v12 (b : Fin 8) (q k : Fin 2048) (c : Fin 512) : ridx_main_v12 (ix3 b q k) c = ix3 b k c := by idx_rfl
theorem idx_v21v22 (b : Fin 8) (q k : Fin 2048) : idx_main_v21 (idx_main_v22 (ix3 b q k)) = ix2 b k := by idx_rfl
theorem idx_v27v28 (b : Fin 8) (q k : Fin 2048) : idx_main_v27 (idx_main_v28 (ix3 b q k)) = ix2 b q := by idx_rfl
theorem idx_v32v33 (b : Fin 8) (q k : Fin 2048) : idx_main_v32 (idx_main_v33 (ix3 b q k)) = ix2 b q := by idx_rfl
theorem idx_v31 (b : Fin 8) (q j : Fin 2048) : idx_main_v31 (ix2 b q) j = ix3 b q j := by idx_rfl
theorem lidx_v35 (b : Fin 8) (q : Fin 2048) (d : Fin 512) (k : Fin 2048) : lidx_main_v35 (ix3 b q d) k = ix3 b q k := by idx_rfl
theorem ridx_v35 (b : Fin 8) (q : Fin 2048) (d : Fin 512) (k : Fin 2048) : ridx_main_v35 (ix3 b q d) k = ix3 b k d := by idx_rfl

/-! ## The three projections -/

theorem v3_eq (x0 : FVec Ideal S8x2048x512 .f32) (x2 : FVec Ideal S512x512 .f32) (x3 : FVec Ideal S512 .f32)
    (b : Fin 8) (r : Fin 2048) (d : Fin 512) :
    val_main_v3 (F := Ideal) x0 x2 x3 (ix3 b r d) = Cert.Spec.proj x0 x2 x3 b r d := by
  rw [val_main_v3_apply, val_main_v0_apply, val_main_v2_apply, val_main_v1_apply, idx_v1v2, Ideal.addf_def]
  unfold Cert.Spec.proj
  refine congrArg (· + _) (Finset.sum_congr rfl fun c _ => ?_)
  rw [lidx_v0, ridx_v0]

theorem v7_eq (x0 : FVec Ideal S8x2048x512 .f32) (x4 : FVec Ideal S512x512 .f32) (x5 : FVec Ideal S512 .f32)
    (b : Fin 8) (r : Fin 2048) (d : Fin 512) :
    val_main_v7 (F := Ideal) x0 x4 x5 (ix3 b r d) = Cert.Spec.proj x0 x4 x5 b r d := by
  rw [val_main_v7_apply, val_main_v4_apply, val_main_v6_apply, val_main_v5_apply, idx_v5v6, Ideal.addf_def]
  unfold Cert.Spec.proj
  refine congrArg (· + _) (Finset.sum_congr rfl fun c _ => ?_)
  rw [lidx_v4, ridx_v4]

theorem v11_eq (x0 : FVec Ideal S8x2048x512 .f32) (x6 : FVec Ideal S512x512 .f32) (x7 : FVec Ideal S512 .f32)
    (b : Fin 8) (r : Fin 2048) (d : Fin 512) :
    val_main_v11 (F := Ideal) x0 x6 x7 (ix3 b r d) = Cert.Spec.proj x0 x6 x7 b r d := by
  rw [val_main_v11_apply, val_main_v8_apply, val_main_v10_apply, val_main_v9_apply, idx_v9v10, Ideal.addf_def]
  unfold Cert.Spec.proj
  refine congrArg (· + _) (Finset.sum_congr rfl fun c _ => ?_)
  rw [lidx_v8, ridx_v8]

/-! ## The scores -/

theorem v23_eq (x0 : FVec Ideal S8x2048x512 .f32) (x1 : FVec Ideal S8x2048 .f32) (x2 : FVec Ideal S512x512 .f32)
    (x3 : FVec Ideal S512 .f32) (x4 : FVec Ideal S512x512 .f32) (x5 : FVec Ideal S512 .f32)
    (b : Fin 8) (q k : Fin 2048) :
    val_main_v23 (F := Ideal) x0 x1 x2 x3 x4 x5 (ix3 b q k) = Cert.Spec.score x0 x1 x2 x3 x4 x5 b q k := by
  rw [val_main_v23_apply, val_main_v14_apply, val_main_v12_apply, val_main_v13_apply, val_main_cst_apply,
    val_main_v22_apply, val_main_v21_apply, idx_v21v22, val_main_v20_apply, val_main_v19_apply, val_main_cst_1_apply,
    val_main_v18_apply, val_main_v17_apply, val_main_cst_0_apply, val_main_v16_apply, val_main_v15_apply]
  simp only [Ideal.mulf_def, Ideal.hostDivf_def, Ideal.addf_def, Ideal.hostUnary_exp_def, Ideal.hostNegf_def,
    Ideal.negf_def, Ideal.ofBits_def]
  unfold Cert.Spec.score Cert.Spec.qk Cert.Spec.gate Cert.Spec.scale
  have hq : ∑ c : Fin 512, val_main_v3 (F := Ideal) x0 x2 x3 (lidx_main_v12 (ix3 b q k) c)
        * val_main_v7 (F := Ideal) x0 x4 x5 (ridx_main_v12 (ix3 b q k) c)
      = ∑ d : Fin 512, Cert.Spec.proj x0 x2 x3 b q d * Cert.Spec.proj x0 x4 x5 b k d :=
    Finset.sum_congr rfl fun c _ => by rw [lidx_v12, ridx_v12, v3_eq, v7_eq]
  rw [hq, mul_assoc, mul_comm (Ideal.ofBits .f32 0x3D3504F3#32)]

theorem v23_real (x0 : FVec Ideal S8x2048x512 .f32) (x1 : FVec Ideal S8x2048 .f32) (x2 : FVec Ideal S512x512 .f32)
    (x3 : FVec Ideal S512 .f32) (x4 : FVec Ideal S512x512 .f32) (x5 : FVec Ideal S512 .f32)
    (h0 : ∀ i, Cert.Spec.IsReal (x0 i)) (h1 : ∀ i, Cert.Spec.IsReal (x1 i)) (h2 : ∀ i, Cert.Spec.IsReal (x2 i))
    (h3 : ∀ i, Cert.Spec.IsReal (x3 i)) (h4 : ∀ i, Cert.Spec.IsReal (x4 i)) (h5 : ∀ i, Cert.Spec.IsReal (x5 i))
    (i : S8x2048x2048.Idx) : Cert.Spec.IsReal (val_main_v23 (F := Ideal) x0 x1 x2 x3 x4 x5 i) := by
  obtain ⟨b, q, k, rfl⟩ : ∃ (b : Fin 8) (q k : Fin 2048), i = ix3 b q k := ⟨i 0, i 1, i 2, eq_ix3 i⟩
  rw [v23_eq]
  exact Cert.Spec.score_real h0 h1 h2 h3 h4 h5 b q k

/-! ## The shift of the softmax is a real number -/

theorem neg_inf_eq_bot : Ideal.ofBits .f32 0xFF800000#32 = (⊥ : EReal) := by
  simp [Ideal.ofBits, Ideal.ieee]

theorem v26_real (x0 : FVec Ideal S8x2048x512 .f32) (x1 : FVec Ideal S8x2048 .f32) (x2 : FVec Ideal S512x512 .f32)
    (x3 : FVec Ideal S512 .f32) (x4 : FVec Ideal S512x512 .f32) (x5 : FVec Ideal S512 .f32)
    (h0 : ∀ i, Cert.Spec.IsReal (x0 i)) (h1 : ∀ i, Cert.Spec.IsReal (x1 i)) (h2 : ∀ i, Cert.Spec.IsReal (x2 i))
    (h3 : ∀ i, Cert.Spec.IsReal (x3 i)) (h4 : ∀ i, Cert.Spec.IsReal (x4 i)) (h5 : ∀ i, Cert.Spec.IsReal (x5 i))
    (i : S8x2048.Idx) : Cert.Spec.IsReal (val_main_v26 (F := Ideal) x0 x1 x2 x3 x4 x5 i) := by
  rw [val_main_v26_apply, val_main_v25_apply, val_main_cst_3_apply, Ideal.maximumf_def, Ideal.ofBits_def, neg_inf_eq_bot]
  unfold val_main_v24
  have hr : S8x2048x2048.Reduces [2] S8x2048 := by decide
  rw [Host.reduce_eq_fold_single FloatOps.maximumf _ _ Facts₀.reducesTo_S8x2048x2048_S8x2048_d2 hr Facts₀.h_S_,
    max_bot_left, val_main_cst_2_apply, Ideal.ofBits_def, neg_inf_eq_bot]
  have hf : (val_main_v23 (F := Ideal) x0 x1 x2 x3 x4 x5 ∘ hr.lift i)
      = fun k => (((val_main_v23 (F := Ideal) x0 x1 x2 x3 x4 x5 (hr.lift i k)).toReal : ℝ) : EReal) :=
    funext fun k => (v23_real x0 x1 x2 x3 x4 x5 h0 h1 h2 h3 h4 h5 (hr.lift i k)).eq_coe_toReal
  rw [hf]
  exact Cert.Lib.OnlineSoftmax.fold_max_real Finset.univ ⟨⟨0, by decide⟩, Finset.mem_univ _⟩ _ _ (Or.inl rfl)

/-! ## The softmax weights, and the result -/

theorem zero_eq : Ideal.ofBits .f32 0x00000000#32 = (0 : EReal) := by
  simp [Ideal.ofBits, Ideal.ieee]

/-- The weight of key k for query q: the exponential of the score less the shift, over the sum of these from zero. -/
theorem v34_eq (x0 : FVec Ideal S8x2048x512 .f32) (x1 : FVec Ideal S8x2048 .f32) (x2 : FVec Ideal S512x512 .f32)
    (x3 : FVec Ideal S512 .f32) (x4 : FVec Ideal S512x512 .f32) (x5 : FVec Ideal S512 .f32)
    (b : Fin 8) (q k : Fin 2048) :
    val_main_v34 (F := Ideal) x0 x1 x2 x3 x4 x5 (ix3 b q k)
      = Ideal.div (Ideal.exp (Cert.Spec.score x0 x1 x2 x3 x4 x5 b q k - val_main_v26 (F := Ideal) x0 x1 x2 x3 x4 x5 (ix2 b q)))
          (0 + ∑ j : Fin 2048, Ideal.exp (Cert.Spec.score x0 x1 x2 x3 x4 x5 b q j - val_main_v26 (F := Ideal) x0 x1 x2 x3 x4 x5 (ix2 b q))) := by
  have h30 : ∀ j : Fin 2048, val_main_v30 (F := Ideal) x0 x1 x2 x3 x4 x5 (ix3 b q j)
      = Ideal.exp (Cert.Spec.score x0 x1 x2 x3 x4 x5 b q j - val_main_v26 (F := Ideal) x0 x1 x2 x3 x4 x5 (ix2 b q)) := fun j => by
    rw [val_main_v30_apply, val_main_v29_apply, val_main_v28_apply, val_main_v27_apply, idx_v27v28, v23_eq,
      Ideal.hostUnary_exp_def, Ideal.subf_def]
  rw [val_main_v34_apply, val_main_v33_apply, val_main_v32_apply, idx_v32v33, val_main_v31_apply, val_main_cst_4_apply,
    Ideal.hostDivf_def, Ideal.ofBits_def, zero_eq, h30 k]
  refine congrArg (fun t => Ideal.div _ (0 + t)) (Finset.sum_congr rfl fun j _ => ?_)
  rw [idx_v31, h30 j]

theorem ref_eq_G
    (x0 : FVec Ideal S8x2048x512 .f32) (x1 : FVec Ideal S8x2048 .f32) (x2 : FVec Ideal S512x512 .f32) (x3 : FVec Ideal S512 .f32)
    (x4 : FVec Ideal S512x512 .f32) (x5 : FVec Ideal S512 .f32) (x6 : FVec Ideal S512x512 .f32) (x7 : FVec Ideal S512 .f32)
    (h0 : ∀ i, Cert.Spec.IsReal (x0 i)) (h1 : ∀ i, Cert.Spec.IsReal (x1 i)) (h2 : ∀ i, Cert.Spec.IsReal (x2 i)) (h3 : ∀ i, Cert.Spec.IsReal (x3 i))
    (h4 : ∀ i, Cert.Spec.IsReal (x4 i)) (h5 : ∀ i, Cert.Spec.IsReal (x5 i)) (h6 : ∀ i, Cert.Spec.IsReal (x6 i)) (h7 : ∀ i, Cert.Spec.IsReal (x7 i)) :
    Cert.ReferenceIdeal.Read.val_main_v35 (F := Ideal) x0 x1 x2 x3 x4 x5 x6 x7 = Cert.Spec.G x0 x1 x2 x3 x4 x5 x6 x7 := by
  funext i
  obtain ⟨b, q, d, rfl⟩ : ∃ (b : Fin 8) (q : Fin 2048) (d : Fin 512), i = ix3 b q d := ⟨i 0, i 1, i 2, eq_ix3 i⟩
  rw [val_main_v35_apply]
  refine (Finset.sum_congr rfl fun k _ => ?_).trans
    (Cert.Spec.two_pass_keys (fun k => Cert.Spec.score x0 x1 x2 x3 x4 x5 b q k)
      (fun k => Cert.Spec.proj x0 x6 x7 b k d)
      (fun k => Cert.Spec.score_real h0 h1 h2 h3 h4 h5 b q k)
      (fun k => Cert.Spec.proj_real h0 h6 h7 b k d)
      (val_main_v26 (F := Ideal) x0 x1 x2 x3 x4 x5 (ix2 b q))
      (v26_real x0 x1 x2 x3 x4 x5 h0 h1 h2 h3 h4 h5 _))
  rw [lidx_v35, ridx_v35, v34_eq, v11_eq]

end Cert.RefIsSpec
end
-- ==== Proof.KernelAttn.lean ====
/-
  The body of the attention kernel as a function of the blocks it loads.

  One grid point loads a tile of 1024 query rows, projects it, and folds the four blocks of 512 keys into the running
  maximum, normaliser and weighted sum of an online softmax, starting from a finite stand-in for minus infinity, zero
  and zero; its output block is the weighted sum divided by the normaliser. attn names that composition over the
  pure terms of the body's stores, so that the frame's found pieces can be stated by it.
-/
import proofs.«414030_j51513837748782_3_alg».proof.Proof.Gen.KernelIdeal.Skeleton

noncomputable section

namespace Cert.KernelIdeal.Block

open Cert.KernelIdeal Cert.KernelIdeal.Gen Idealize.ShloMosaic

variable {F : FTy → Type} [FloatOps F]

/-- The output block of one grid point: xq the query rows of the input, wq and bq the query projection, k0 .. k3 and
    v0 .. v3 the four key and value blocks, e0 .. e3 the four blocks of per-key weights. -/
def attn (xq : Vec F S1x1024x512 .f32) (wq : Vec F S512x512 .bf16) (bq : Vec F S1x512 .f32)
    (k0 k1 k2 k3 v0 v1 v2 v3 : Vec F S512x512 .bf16) (e0 e1 e2 e3 : Vec F S1x1x512 .f32) : Vec F S1x1024x512 .f32 :=
  let q := k0_pay15 xq wq bq
  let m1 := k0_pay25 q k0 e0 k0_pay16
  let l1 := k0_pay23 q k0 e0 k0_pay16 k0_pay17
  let a1 := k0_pay24 q k0 v0 e0 k0_pay16 k0_pay18
  let m2 := k0_pay32 q k1 e1 m1
  let l2 := k0_pay30 q k1 e1 m1 l1
  let a2 := k0_pay31 q k1 v1 e1 m1 a1
  let m3 := k0_pay39 (k0_pay34 q k2 e2 m2)
  let l3 := k0_pay37 q k2 e2 m2 l2
  let a3 := k0_pay38 q k2 v2 e2 m2 a2
  let l4 := k0_pay44 q k3 e3 m3 l3
  let a4 := k0_pay45 q k3 v3 e3 m3 a3
  k0_pay2 a4 l4

/-- The later key blocks are folded by the same terms as the first. -/
theorem pay32_eq : @k0_pay32 F _ = @k0_pay25 F _ := rfl
theorem pay30_eq : @k0_pay30 F _ = @k0_pay23 F _ := rfl
theorem pay31_eq : @k0_pay31 F _ = @k0_pay24 F _ := rfl
theorem pay39_34_eq (q : FVec F S1024x512 .bf16) (kk : Vec F S512x512 .bf16) (e : Vec F S1x1x512 .f32) (m : Vec F S1024x1 .f32) :
    k0_pay39 (k0_pay34 q kk e m) = k0_pay25 q kk e m := rfl
theorem pay37_eq : @k0_pay37 F _ = @k0_pay23 F _ := rfl
theorem pay38_eq : @k0_pay38 F _ = @k0_pay24 F _ := rfl
theorem pay44_eq : @k0_pay44 F _ = @k0_pay23 F _ := rfl
theorem pay45_eq : @k0_pay45 F _ = @k0_pay24 F _ := rfl

/-- The later chunks of the key and value build are the same terms as the first. -/
theorem pay7_eq : @k0_pay7 F _ = @k0_pay4 F _ := rfl
theorem pay8_6_eq (x : Vec F S1x512x512 .f32) (w : Vec F S512x1024 .bf16) (b : Vec F S1x1024 .f32) :
    k0_pay8 (k0_pay6 x w b) = k0_pay5 x w b := rfl
theorem pay10_eq : @k0_pay10 F _ = @k0_pay4 F _ := rfl
theorem pay11_eq : @k0_pay11 F _ = @k0_pay5 F _ := rfl
theorem pay13_12_eq (x : Vec F S1x512x512 .f32) (w : Vec F S512x1024 .bf16) (b : Vec F S1x1024 .f32) :
    k0_pay13 (k0_pay12 x w b) = k0_pay4 x w b := rfl
theorem pay14_12_eq (x : Vec F S1x512x512 .f32) (w : Vec F S512x1024 .bf16) (b : Vec F S1x1024 .f32) :
    k0_pay14 (k0_pay12 x w b) = k0_pay5 x w b := rfl

end Cert.KernelIdeal.Block

end
-- ==== Proof.KernelPieces.lean ====
/-
  What one grid point of the attention kernel leaves behind, as values.

  The kernel runs 16 grid points, two per batch. The first point of a batch rebuilds the key and value scratch from the
  batch's input block, 512 rows at a time, and every point computes the attention of its 1024 query rows over the four
  row blocks of that scratch. The frame's run states each buffer's final contents as the pieces its stores left; here
  those pieces are read back: the output block is attn of the blocks the body loads, and the scratch after a rebuild
  is the canon of its four stored row blocks.
-/
import proofs.«414030_j51513837748782_3_alg».proof.Proof.Gen.KernelIdeal.Frame
import proofs.«414030_j51513837748782_3_alg».proof.Proof.KernelAttn
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Block

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets, after stores the last of which went through that
    rectangle, reads the last store's value, whatever the earlier stores were. -/
theorem readCov_cons_unit_zero {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## A point that rebuilds the keys and values -/

/-- Four stores of 512 rows each tile the 2048 rows of the key (or value) scratch. -/
theorem cover_rows (w0 w1 w2 w3 : S512x512.Idx → Elt F .bf16)
    (h3 : ∀ a, (![1536, 0] : Fin 2 → Nat) a + (![512, 512] : Fin 2 → Nat) a ≤ S2048x512.size a)
    (h2 : ∀ a, (![1024, 0] : Fin 2 → Nat) a + (![512, 512] : Fin 2 → Nat) a ≤ S2048x512.size a)
    (h1 : ∀ a, (![512, 0] : Fin 2 → Nat) a + (![512, 512] : Fin 2 → Nat) a ≤ S2048x512.size a)
    (h0 : ∀ a, (![0, 0] : Fin 2 → Nat) a + (![512, 512] : Fin 2 → Nat) a ≤ S2048x512.size a) :
    ∀ y : S2048x512.Idx, ∃ p ∈ ([⟨Rect.unit (s := S2048x512) ![1536, 0] ![512, 512] h3, w3⟩, ⟨Rect.unit (s := S2048x512) ![1024, 0] ![512, 512] h2, w2⟩, ⟨Rect.unit (s := S2048x512) ![512, 0] ![512, 512] h1, w1⟩, ⟨Rect.unit (s := S2048x512) ![0, 0] ![512, 512] h0, w0⟩] : List (View.Piece (Elt F) S2048x512 .bf16)), y ∈ p.1.set :=
  View.cover_of_tiledL _ ![512, 512] (by sl_kernel_rfl)

/-- A load from the scratch after those four stores reads what they left. -/
theorem readCov_rows (v : View sig .tc .vmem S2048x512 .bf16) (w0 w1 w2 w3 : S512x512.Idx → Elt F .bf16)
    (h3 : ∀ a, (![1536, 0] : Fin 2 → Nat) a + (![512, 512] : Fin 2 → Nat) a ≤ S2048x512.size a)
    (h2 : ∀ a, (![1024, 0] : Fin 2 → Nat) a + (![512, 512] : Fin 2 → Nat) a ≤ S2048x512.size a)
    (h1 : ∀ a, (![512, 0] : Fin 2 → Nat) a + (![512, 512] : Fin 2 → Nat) a ≤ S2048x512.size a)
    (h0 : ∀ a, (![0, 0] : Fin 2 → Nat) a + (![512, 512] : Fin 2 → Nat) a ≤ S2048x512.size a) (r : Rect S2048x512) :
    v.readCov ([⟨Rect.unit (s := S2048x512) ![1536, 0] ![512, 512] h3, w3⟩, ⟨Rect.unit (s := S2048x512) ![1024, 0] ![512, 512] h2, w2⟩, ⟨Rect.unit (s := S2048x512) ![512, 0] ![512, 512] h1, w1⟩, ⟨Rect.unit (s := S2048x512) ![0, 0] ![512, 512] h0, w0⟩] : List (View.Piece (Elt F) S2048x512 .bf16)) r.toLoadRect
      = View.ld (View.canon ([⟨Rect.unit (s := S2048x512) ![1536, 0] ![512, 512] h3, w3⟩, ⟨Rect.unit (s := S2048x512) ![1024, 0] ![512, 512] h2, w2⟩, ⟨Rect.unit (s := S2048x512) ![512, 0] ![512, 512] h1, w1⟩, ⟨Rect.unit (s := S2048x512) ![0, 0] ![512, 512] h0, w0⟩] : List (View.Piece (Elt F) S2048x512 .bf16))) r :=
  View.readCov_eq_canon_ld _ _ _ (cover_rows w0 w1 w2 w3 h3 h2 h1 h0)

/-- The key scratch after a rebuild: row block j holds the key projection of rows 512 j .. 512 j + 511 of the input block. -/
def kBuild (x0 : Vec F S1x2048x512 .f32) (x2 : Vec F S512x1024 .bf16) (x4 : Vec F S1x1024 .f32) : Vec F S2048x512 .bf16 :=
  View.canon ([⟨(Rect.unit (s := S2048x512) ![1536, 0] S512x512.size inb_S2048x512_S512x512_1536_0), k0_pay4 (View.ld x0 (Rect.unit (s := S1x2048x512) ![0, 1536, 0] S1x512x512.size inb_S1x2048x512_S1x512x512_0_1536_0)) x2 x4⟩, ⟨(Rect.unit (s := S2048x512) ![1024, 0] S512x512.size inb_S2048x512_S512x512_1024_0), k0_pay4 (View.ld x0 (Rect.unit (s := S1x2048x512) ![0, 1024, 0] S1x512x512.size inb_S1x2048x512_S1x512x512_0_1024_0)) x2 x4⟩, ⟨(Rect.unit (s := S2048x512) ![512, 0] S512x512.size inb_S2048x512_S512x512_512_0), k0_pay4 (View.ld x0 (Rect.unit (s := S1x2048x512) ![0, 512, 0] S1x512x512.size inb_S1x2048x512_S1x512x512_0_512_0)) x2 x4⟩, ⟨(Rect.unit (s := S2048x512) ![0, 0] S512x512.size inb_S2048x512_S512x512_0_0), k0_pay4 (View.ld x0 (Rect.unit (s := S1x2048x512) ![0, 0, 0] S1x512x512.size inb_S1x2048x512_S1x512x512_0_0_0)) x2 x4⟩] : List (View.Piece (Elt F) S2048x512 .bf16))

/-- The value scratch after a rebuild, likewise. -/
def vBuild (x0 : Vec F S1x2048x512 .f32) (x2 : Vec F S512x1024 .bf16) (x4 : Vec F S1x1024 .f32) : Vec F S2048x512 .bf16 :=
  View.canon ([⟨(Rect.unit (s := S2048x512) ![1536, 0] S512x512.size inb_S2048x512_S512x512_1536_0), k0_pay5 (View.ld x0 (Rect.unit (s := S1x2048x512) ![0, 1536, 0] S1x512x512.size inb_S1x2048x512_S1x512x512_0_1536_0)) x2 x4⟩, ⟨(Rect.unit (s := S2048x512) ![1024, 0] S512x512.size inb_S2048x512_S512x512_1024_0), k0_pay5 (View.ld x0 (Rect.unit (s := S1x2048x512) ![0, 1024, 0] S1x512x512.size inb_S1x2048x512_S1x512x512_0_1024_0)) x2 x4⟩, ⟨(Rect.unit (s := S2048x512) ![512, 0] S512x512.size inb_S2048x512_S512x512_512_0), k0_pay5 (View.ld x0 (Rect.unit (s := S1x2048x512) ![0, 512, 0] S1x512x512.size inb_S1x2048x512_S1x512x512_0_512_0)) x2 x4⟩, ⟨(Rect.unit (s := S2048x512) ![0, 0] S512x512.size inb_S2048x512_S512x512_0_0), k0_pay5 (View.ld x0 (Rect.unit (s := S1x2048x512) ![0, 0, 0] S1x512x512.size inb_S1x2048x512_S1x512x512_0_0_0)) x2 x4⟩] : List (View.Piece (Elt F) S2048x512 .bf16))

theorem sout_A_0 (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1x2048 .f32) (harg7 : arg7.IsWhole) (arg8 : Memref sig .tc .vmem S1x1024x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond0_0 i) (x0 : Vec F S1x2048x512 .f32) (x1 : Vec F S512x512 .bf16) (x2 : Vec F S512x1024 .bf16) (x3 : Vec F S1x512 .f32) (x4 : Vec F S1x1024 .f32) (x5 : Vec F S1x1x2048 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 = kBuild x0 x2 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg2.read_unread, harg4.read_unread, harg6.read_unread,
    View.ld_unit_zero (S := S512x1024) hz2, View.ld_unit_zero (S := S1x1024) hz2]
  rfl

theorem sout_A_1 (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1x2048 .f32) (harg7 : arg7.IsWhole) (arg8 : Memref sig .tc .vmem S1x1024x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond0_0 i) (x0 : Vec F S1x2048x512 .f32) (x1 : Vec F S512x512 .bf16) (x2 : Vec F S512x1024 .bf16) (x3 : Vec F S1x512 .f32) (x4 : Vec F S1x1024 .f32) (x5 : Vec F S1x1x2048 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 = vBuild x0 x2 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  simp only [View.readAt_eq_ld, harg2.read_unread, harg4.read_unread, harg6.read_unread,
    View.ld_unit_zero (S := S512x1024) hz2, View.ld_unit_zero (S := S1x1024) hz2]
  rfl

/-- At a point that rebuilds them, the output block is the attention of the point's query rows over the four row blocks
    of the rebuilt keys and values. -/
theorem out_A (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1x2048 .f32) (harg7 : arg7.IsWhole) (arg8 : Memref sig .tc .vmem S1x1024x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond0_0 i) (x0 : Vec F S1x2048x512 .f32) (x1 : Vec F S512x512 .bf16) (x2 : Vec F S512x1024 .bf16) (x3 : Vec F S1x512 .f32) (x4 : Vec F S1x1024 .f32) (x5 : Vec F S1x1x2048 .f32) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5
      = attn (View.ld x0 (Rect.unit (s := S1x2048x512) (k0_off1 i) S1x1024x512.size (k0_off1_inb i))) x1 x3
          (View.ld (kBuild x0 x2 x4) (Rect.unit (s := S2048x512) ![0, 0] S512x512.size inb_S2048x512_S512x512_0_0)) (View.ld (kBuild x0 x2 x4) (Rect.unit (s := S2048x512) ![512, 0] S512x512.size inb_S2048x512_S512x512_512_0)) (View.ld (kBuild x0 x2 x4) (Rect.unit (s := S2048x512) ![1024, 0] S512x512.size inb_S2048x512_S512x512_1024_0)) (View.ld (kBuild x0 x2 x4) (Rect.unit (s := S2048x512) ![1536, 0] S512x512.size inb_S2048x512_S512x512_1536_0))
          (View.ld (vBuild x0 x2 x4) (Rect.unit (s := S2048x512) ![0, 0] S512x512.size inb_S2048x512_S512x512_0_0)) (View.ld (vBuild x0 x2 x4) (Rect.unit (s := S2048x512) ![512, 0] S512x512.size inb_S2048x512_S512x512_512_0)) (View.ld (vBuild x0 x2 x4) (Rect.unit (s := S2048x512) ![1024, 0] S512x512.size inb_S2048x512_S512x512_1024_0)) (View.ld (vBuild x0 x2 x4) (Rect.unit (s := S2048x512) ![1536, 0] S512x512.size inb_S2048x512_S512x512_1536_0))
          (View.ld x5 (Rect.unit (s := S1x1x2048) ![0, 0, 0] S1x1x512.size inb_S1x1x2048_S1x1x512_0_0_0)) (View.ld x5 (Rect.unit (s := S1x1x2048) ![0, 0, 512] S1x1x512.size inb_S1x1x2048_S1x1x512_0_0_512)) (View.ld x5 (Rect.unit (s := S1x1x2048) ![0, 0, 1024] S1x1x512.size inb_S1x1x2048_S1x1x512_0_0_1024)) (View.ld x5 (Rect.unit (s := S1x1x2048) ![0, 0, 1536] S1x1x512.size inb_S1x1x2048_S1x1x512_0_0_1536)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread,
    harg7.read_unread, View.ld_unit_zero (S := S512x512) hz2, View.ld_unit_zero (S := S1x512) hz2,
    View.ld_unit_zero (S := S512x1024) hz2, View.ld_unit_zero (S := S1x1024) hz2,
    readCov_cons_unit_zero (S := S1024x1) _ hz2, readCov_cons_unit_zero (S := S1024x512) _ hz2, readCov_rows,
    pay7_eq, pay10_eq, pay13_12_eq, pay8_6_eq, pay11_eq, pay14_12_eq]
  unfold kBuild vBuild
  rfl

/-! ## A point that reuses the keys and values of the point before -/

/-- At a point that does not rebuild the keys and values, the output block is the attention of the point's query rows
    over the four row blocks of the key and value scratch as the point before left them. -/
theorem out_B (c : Dev nD) (i : grid0.Coords) (arg2 : Memref sig .tc .vmem S1x2048x512 .f32) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1x2048 .f32) (harg7 : arg7.IsWhole) (arg8 : Memref sig .tc .vmem S1x1024x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond0_0 i) (x0 : Vec F S1x2048x512 .f32) (x1 : Vec F S512x512 .bf16) (x2 : Vec F S512x1024 .bf16) (x3 : Vec F S1x512 .f32) (x4 : Vec F S1x1024 .f32) (x5 : Vec F S1x1x2048 .f32) (xs0 xs1 : Vec F S2048x512 .bf16) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1
      = attn (View.ld x0 (Rect.unit (s := S1x2048x512) (k0_off1 i) S1x1024x512.size (k0_off1_inb i))) x1 x3
          (View.ld xs0 (Rect.unit (s := S2048x512) ![0, 0] S512x512.size inb_S2048x512_S512x512_0_0)) (View.ld xs0 (Rect.unit (s := S2048x512) ![512, 0] S512x512.size inb_S2048x512_S512x512_512_0)) (View.ld xs0 (Rect.unit (s := S2048x512) ![1024, 0] S512x512.size inb_S2048x512_S512x512_1024_0)) (View.ld xs0 (Rect.unit (s := S2048x512) ![1536, 0] S512x512.size inb_S2048x512_S512x512_1536_0))
          (View.ld xs1 (Rect.unit (s := S2048x512) ![0, 0] S512x512.size inb_S2048x512_S512x512_0_0)) (View.ld xs1 (Rect.unit (s := S2048x512) ![512, 0] S512x512.size inb_S2048x512_S512x512_512_0)) (View.ld xs1 (Rect.unit (s := S2048x512) ![1024, 0] S512x512.size inb_S2048x512_S512x512_1024_0)) (View.ld xs1 (Rect.unit (s := S2048x512) ![1536, 0] S512x512.size inb_S2048x512_S512x512_1536_0))
          (View.ld x5 (Rect.unit (s := S1x1x2048) ![0, 0, 0] S1x1x512.size inb_S1x1x2048_S1x1x512_0_0_0)) (View.ld x5 (Rect.unit (s := S1x1x2048) ![0, 0, 512] S1x1x512.size inb_S1x1x2048_S1x1x512_0_0_512)) (View.ld x5 (Rect.unit (s := S1x1x2048) ![0, 0, 1024] S1x1x512.size inb_S1x1x2048_S1x1x512_0_0_1024)) (View.ld x5 (Rect.unit (s := S1x1x2048) ![0, 0, 1536] S1x1x512.size inb_S1x1x2048_S1x1x512_0_0_1536)) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1)]
  unfold kernelRun0_B
  dsimp only
  sl_unfold_words
  rw [View.canon_unit_zero hz3]
  simp only [View.readAt_eq_ld, harg2.read_unread, harg3.read_unread, harg5.read_unread, harg7.read_unread, harg9.read_unread,
    harg10.read_unread, View.ld_unit_zero (S := S512x512) hz2, View.ld_unit_zero (S := S1x512) hz2,
    readCov_cons_unit_zero (S := S1024x1) _ hz2, readCov_cons_unit_zero (S := S1024x512) _ hz2]
  rfl

end Cert.KernelIdeal.Pieces

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.KernelBlock.lean ====
/-
  The attention kernel's pure terms read at an index, over the extended reals.

  Each term of the kernel body is a composition of layout operations (shape casts, a transpose, broadcasts, slices),
  matrix products into a zero accumulator, lane reductions and elementwise arithmetic. Over the extended reals the
  format changes are the identity and a product is the textbook sum, so each term read at one entry is a closed
  formula: the query tile is x W + b, the scores of a key block are (Q . K) times the key's weight, and the three
  state updates are one block of the online softmax (running maximum, normaliser, weighted sum). The output block
  of one grid point, read at an entry, is then the four-block online softmax of that row, divided out.
-/
import Idealize.ShloMosaic.PureOps.Ideal.Laws
import Idealize.ShloMosaic.Lib.ValueIdx
import Idealize.ShloMosaic.Lib.ValueLayout
import Idealize.ShloMosaic.Lib.Pipeline.Value
import proofs.«414030_j51513837748782_3_alg».proof.Proof.LibOnlineSoftmax
import proofs.«414030_j51513837748782_3_alg».proof.Proof.LibPlainProduct
import proofs.«414030_j51513837748782_3_alg».proof.Proof.KernelAttn

noncomputable section

open scoped BigOperators

namespace Cert.KernelIdeal.Block

open Cert.KernelIdeal Cert.KernelIdeal.Gen Cert.Lib.OnlineSoftmax Cert.Lib.PlainProduct
open Idealize.ShloMosaic Idealize.ShloMosaic.ValueIdx

/-! ## The two product records are plain products -/

theorem plain_q : IsPlain dot_S1024x512_S512x512_S1024x512_1_0_0_1_n_n := ⟨rfl, rfl, rfl, rfl, rfl, rfl⟩
theorem plain_kv : IsPlain dot_S512x512_S512x1024_S512x1024_1_0_0_1_n_n := ⟨rfl, rfl, rfl, rfl, rfl, rfl⟩

/-- Two sums of extended reals are equal when their terms are. -/
theorem add_congr {a a' b b' : EReal} (h₁ : a = a') (h₂ : b = b') : a + b = a' + b' := by rw [h₁, h₂]
/-- Two products of extended reals are equal when their factors are. -/
theorem mul_congr {a a' b b' : EReal} (h₁ : a = a') (h₂ : b = b') : a * b = a' * b' := by rw [h₁, h₂]

/-! ## The query tile -/

/-- The query tile at (r, d): row r of the input times column d of the weight, plus the bias. -/
theorem pay15_apply (xq : Vec Ideal S1x1024x512 .f32) (wq : Vec Ideal S512x512 .bf16) (bq : Vec Ideal S1x512 .f32)
    (r : Fin 1024) (d : Fin 512) :
    k0_pay15 xq wq bq (ix2 r d) = (∑ c : Fin 512, xq (ix3 0 r c) * wq (ix2 c d)) + bq (ix2 0 d) := by
  unfold k0_pay15
  refine add_congr ?_ ?_
  · refine (matmul_zero_apply plain_q none _ _ r d).trans ?_
    refine Finset.sum_congr rfl fun c _ => mul_congr ?_ ?_
    · exact shapeCast_1ab_ab_apply xq _ r c
    · exact congrFun (shapeCast_self wq _) _
  · refine (broadcastTo_1b_ab_apply _ _ r d).trans ?_
    exact congrFun (shapeCast_self bq _) _

/-! ## The scores of a key block -/

/-- The score of key k' for query row r: the dot product of the query row with the key row, times the key's weight. -/
theorem pay19_apply (q : FVec Ideal S1024x512 .bf16) (kk : Vec Ideal S512x512 .bf16) (e : Vec Ideal S1x1x512 .f32)
    (r : Fin 1024) (k' : Fin 512) :
    k0_pay19 q kk e (ix2 r k') = (∑ d : Fin 512, q (ix2 r d) * kk (ix2 k' d)) * e (ix3 0 0 k') := by
  unfold k0_pay19
  refine mul_congr ?_ ?_
  · refine (matmul_zero_apply plain_q none _ _ r k').trans ?_
    refine Finset.sum_congr rfl fun d _ => mul_congr rfl ?_
    exact transpose_ix2_apply kk _ d k'
  · refine (broadcastTo_1b_ab_apply _ _ r k').trans ?_
    exact shapeCast_1ab_ab_apply e _ 0 k'

/-! ## The lane reductions of a block of scores -/

/-- The index over row r with lane k inserted is (r, k). -/
theorem lift_row (h : S1024x512.Reduces [1] S1024) (r : Fin 1024) (k : Fin 512) : h.lift (ix1 r) k = ix2 r k := by
  funext c
  match c with
  | ⟨0, _⟩ => exact Fin.ext rfl
  | ⟨1, _⟩ => exact Fin.ext rfl

/-- A vector of row values cast to a column reads, at (r, 0), the value of row r. -/
theorem col_apply {α : Type} (v : S1024.Idx → α) (h : S1024.ShapeCasts S1024x1) (r : Fin 1024) :
    shapeCast S1024x1 v h (ix2 r 0) = v (ix1 r) :=
  shapeCast_apply v h _ _ (by
    rw [Shape.rowMajor_val_one, Shape.rowMajor_val_two]
    show r.val = r.val * 1 + 0
    omega)

/-- A column broadcast along the lanes reads, at (r, k), the column's value at row r. -/
theorem bcol_apply {α : Type} (v : S1024x1.Idx → α) (h : S1024x1.Broadcasts S1024x512) (r : Fin 1024) (k : Fin 512) :
    broadcastTo S1024x512 v h (ix2 r k) = v (ix2 r 0) := by
  refine broadcastTo_apply v h (ix2 r k) (ix2 r 0) fun ax => ?_
  match ax with
  | ⟨0, _⟩ => rfl
  | ⟨1, _⟩ => rfl

/-- The pattern of minus infinity is the bottom element. -/
theorem ofBits_neg_inf : Ideal.ofBits .f32 0xFF800000#32 = (⊥ : EReal) := by simp [Ideal.ofBits, Ideal.ieee]

/-- The running maximum after a key block, before it is stored. -/
theorem pay20_apply (q : FVec Ideal S1024x512 .bf16) (kk : Vec Ideal S512x512 .bf16) (e : Vec Ideal S1x1x512 .f32)
    (m : Vec Ideal S1024x1 .f32) (r : Fin 1024) :
    k0_pay20 q kk e m (ix2 r 0) = stepMax (m (ix2 r 0)) (fun k' => k0_pay19 q kk e (ix2 r k')) := by
  unfold k0_pay20 stepMax
  refine (maximumf_apply _ _ _).trans ?_
  refine congrArg (max (m (ix2 r 0))) ?_
  refine (col_apply _ _ r).trans ?_
  refine (Ideal.multiReduction_maximumf_single _ _ _ _ _ _).trans ?_
  refine (congrArg (fun b => (Finset.univ : Finset (Fin 512)).fold max b _) ofBits_neg_inf).trans ?_
  refine congrArg ((Finset.univ : Finset (Fin 512)).fold max ⊥) (funext fun k' => ?_)
  exact congrArg (k0_pay19 q kk e) (lift_row _ r k')

/-- The new running maximum. -/
theorem pay25_apply (q : FVec Ideal S1024x512 .bf16) (kk : Vec Ideal S512x512 .bf16) (e : Vec Ideal S1x1x512 .f32)
    (m : Vec Ideal S1024x1 .f32) (r : Fin 1024) :
    k0_pay25 q kk e m (ix2 r 0) = stepMax (m (ix2 r 0)) (fun k' => k0_pay19 q kk e (ix2 r k')) := by
  unfold k0_pay25
  exact (congrFun (shapeCast_self _ _) _).trans (pay20_apply q kk e m r)

/-- The factor that rescales the old state: the exponential of the old maximum minus the new one. -/
theorem pay21_apply (q : FVec Ideal S1024x512 .bf16) (kk : Vec Ideal S512x512 .bf16) (e : Vec Ideal S1x1x512 .f32)
    (m : Vec Ideal S1024x1 .f32) (r : Fin 1024) :
    k0_pay21 q kk e m (ix2 r 0)
      = Ideal.exp (m (ix2 r 0) - stepMax (m (ix2 r 0)) (fun k' => k0_pay19 q kk e (ix2 r k'))) := by
  unfold k0_pay21
  exact congrArg (fun t => Ideal.exp (m (ix2 r 0) - t)) (pay20_apply q kk e m r)

/-- The weight of key k' in the block: the exponential of its score minus the new maximum. -/
theorem pay22_apply (q : FVec Ideal S1024x512 .bf16) (kk : Vec Ideal S512x512 .bf16) (e : Vec Ideal S1x1x512 .f32)
    (m : Vec Ideal S1024x1 .f32) (r : Fin 1024) (k' : Fin 512) :
    k0_pay22 q kk e m (ix2 r k')
      = Ideal.exp (k0_pay19 q kk e (ix2 r k') - stepMax (m (ix2 r 0)) (fun k'' => k0_pay19 q kk e (ix2 r k''))) := by
  unfold k0_pay22
  refine congrArg (fun t => Ideal.exp (k0_pay19 q kk e (ix2 r k') - t)) ?_
  exact (bcol_apply _ _ r k').trans (pay20_apply q kk e m r)

/-- The new normaliser: the old one rescaled, plus the block's weights summed. -/
theorem pay23_apply (q : FVec Ideal S1024x512 .bf16) (kk : Vec Ideal S512x512 .bf16) (e : Vec Ideal S1x1x512 .f32)
    (m l : Vec Ideal S1024x1 .f32) (r : Fin 1024) :
    k0_pay23 q kk e m l (ix2 r 0)
      = stepNorm (m (ix2 r 0)) (l (ix2 r 0)) (fun k' => k0_pay19 q kk e (ix2 r k')) := by
  unfold k0_pay23 stepNorm
  refine (congrFun (shapeCast_self _ _) _).trans ?_
  refine add_congr (mul_congr (pay21_apply q kk e m r) rfl) ?_
  refine (col_apply _ _ r).trans ?_
  refine (Ideal.multiReduction_add_single _ _ _ _ _ _).trans ?_
  refine Finset.sum_congr rfl fun k' _ => ?_
  exact (congrArg (k0_pay22 q kk e m) (lift_row _ r k')).trans (pay22_apply q kk e m r k')

/-- The new weighted sum: the old one rescaled, plus the block's weights times the value rows. -/
theorem pay24_apply (q : FVec Ideal S1024x512 .bf16) (kk vv : Vec Ideal S512x512 .bf16) (e : Vec Ideal S1x1x512 .f32)
    (m : Vec Ideal S1024x1 .f32) (a : Vec Ideal S1024x512 .f32) (r : Fin 1024) (d : Fin 512) :
    k0_pay24 q kk vv e m a (ix2 r d)
      = stepAcc (m (ix2 r 0)) (a (ix2 r d)) (fun k' => k0_pay19 q kk e (ix2 r k')) (fun k' => vv (ix2 k' d)) := by
  unfold k0_pay24 stepAcc
  refine (congrFun (shapeCast_self _ _) _).trans ?_
  refine add_congr (mul_congr ((bcol_apply _ _ r d).trans (pay21_apply q kk e m r)) rfl) ?_
  refine (matmul_zero_apply (φ₁ := .bf16) (φ₂ := .bf16) plain_q none _ vv r d).trans ?_
  refine Finset.sum_congr rfl fun k' _ => mul_congr ?_ rfl
  exact pay22_apply q kk e m r k'

/-! ## The starting state and the final quotient -/

/-- The starting maximum is the finite stand-in for minus infinity, everywhere. -/
theorem pay16_apply (i : S1024x1.Idx) : k0_pay16 (F := Ideal) i = Ideal.ofBits .f32 0xFF333332#32 := by
  unfold k0_pay16
  exact congrFun (shapeCast_self _ _) _

/-- The starting normaliser is zero. -/
theorem pay17_apply (i : S1024x1.Idx) : k0_pay17 (F := Ideal) i = 0 := by
  unfold k0_pay17
  exact (congrFun (shapeCast_self _ _) _).trans Ideal.ofBits_zero_f32

/-- The starting weighted sum is zero. -/
theorem pay18_apply (i : S1024x512.Idx) : k0_pay18 (F := Ideal) i = 0 := by
  unfold k0_pay18
  exact (congrFun (shapeCast_self _ _) _).trans Ideal.ofBits_zero_f32

/-- The output block: the weighted sum divided by the normaliser of its row. -/
theorem pay2_apply (a : Vec Ideal S1024x512 .f32) (l : Vec Ideal S1024x1 .f32) (r : Fin 1024) (d : Fin 512) :
    k0_pay2 a l (ix3 0 r d) = Ideal.div (a (ix2 r d)) (l (ix2 r 0)) := by
  unfold k0_pay2
  refine (shapeCast_ab_1ab_apply _ _ 0 r d).trans ?_
  exact congrArg (Ideal.div (a (ix2 r d))) (bcol_apply _ _ r d)

/-! ## The key and value build -/

/-- A chunk of 512 rows projected by the stacked key and value weights, at (k', j). -/
theorem pay3_apply (xc : Vec Ideal S1x512x512 .f32) (w : Vec Ideal S512x1024 .bf16) (b : Vec Ideal S1x1024 .f32)
    (k' : Fin 512) (j : Fin 1024) :
    k0_pay3 xc w b (ix2 k' j) = (∑ c : Fin 512, xc (ix3 0 k' c) * w (ix2 c j)) + b (ix2 0 j) := by
  unfold k0_pay3
  refine add_congr ?_ ?_
  · refine (matmul_zero_apply plain_kv none _ _ k' j).trans ?_
    refine Finset.sum_congr rfl fun c _ => mul_congr ?_ ?_
    · exact shapeCast_1ab_ab_apply xc _ k' c
    · exact congrFun (shapeCast_self w _) _
  · refine (broadcastTo_1b_ab_apply _ _ k' j).trans ?_
    exact congrFun (shapeCast_self b _) _

/-- The key rows of the chunk are the lower half of the columns. -/
theorem kChunk_apply (xc : Vec Ideal S1x512x512 .f32) (w : Vec Ideal S512x1024 .bf16) (b : Vec Ideal S1x1024 .f32)
    (k' d : Fin 512) :
    k0_pay4 xc w b (ix2 k' d)
      = (∑ c : Fin 512, xc (ix3 0 k' c) * w (ix2 c ⟨d.val, by omega⟩)) + b (ix2 0 ⟨d.val, by omega⟩) := by
  unfold k0_pay4
  refine (congrFun (shapeCast_self _ _) _).trans ?_
  show extractStridedSlice S512x512 ![0, 0] (k0_pay3 xc w b) slices_S512x1024_o0_0_S512x512 (ix2 k' d) = _
  refine (slice2_axis1_apply 0 (k0_pay3 xc w b) _ k' d (⟨d.val, by omega⟩ : Fin 1024) (Nat.zero_add _).symm).trans ?_
  exact pay3_apply xc w b k' _

/-- The value rows of the chunk are the upper half of the columns. -/
theorem vChunk_apply (xc : Vec Ideal S1x512x512 .f32) (w : Vec Ideal S512x1024 .bf16) (b : Vec Ideal S1x1024 .f32)
    (k' d : Fin 512) :
    k0_pay5 xc w b (ix2 k' d)
      = (∑ c : Fin 512, xc (ix3 0 k' c) * w (ix2 c ⟨512 + d.val, by omega⟩)) + b (ix2 0 ⟨512 + d.val, by omega⟩) := by
  unfold k0_pay5
  refine (congrFun (shapeCast_self _ _) _).trans ?_
  show extractStridedSlice S512x512 ![0, 512] (k0_pay3 xc w b) slices_S512x1024_o0_512_S512x512 (ix2 k' d) = _
  refine (slice2_axis1_apply 512 (k0_pay3 xc w b) _ k' d (⟨512 + d.val, by omega⟩ : Fin 1024) rfl).trans ?_
  exact pay3_apply xc w b k' _

/-! ## The output block of one grid point -/

/-- The output block at (0, r, d): the four key blocks folded into the online softmax of row r from the finite
    starting maximum, zero and zero, and the weighted sum divided by the normaliser. -/
theorem attn_apply (xq : Vec Ideal S1x1024x512 .f32) (wq : Vec Ideal S512x512 .bf16) (bq : Vec Ideal S1x512 .f32)
    (k0 k1 k2 k3 v0 v1 v2 v3 : Vec Ideal S512x512 .bf16) (e0 e1 e2 e3 : Vec Ideal S1x1x512 .f32) (r : Fin 1024) (d : Fin 512) :
    attn xq wq bq k0 k1 k2 k3 v0 v1 v2 v3 e0 e1 e2 e3 (ix3 0 r d)
      = (let Q : Fin 512 → EReal := fun dd => (∑ c : Fin 512, xq (ix3 0 r c) * wq (ix2 c dd)) + bq (ix2 0 dd)
         let sc : Vec Ideal S512x512 .bf16 → Vec Ideal S1x1x512 .f32 → Fin 512 → EReal :=
           fun kk e k' => (∑ dd : Fin 512, Q dd * kk (ix2 k' dd)) * e (ix3 0 0 k')
         let m0 : EReal := Ideal.ofBits .f32 0xFF333332#32
         let m1 := stepMax m0 (sc k0 e0); let l1 := stepNorm m0 0 (sc k0 e0); let a1 := stepAcc m0 0 (sc k0 e0) (fun k' => v0 (ix2 k' d))
         let m2 := stepMax m1 (sc k1 e1); let l2 := stepNorm m1 l1 (sc k1 e1); let a2 := stepAcc m1 a1 (sc k1 e1) (fun k' => v1 (ix2 k' d))
         let m3 := stepMax m2 (sc k2 e2); let l3 := stepNorm m2 l2 (sc k2 e2); let a3 := stepAcc m2 a2 (sc k2 e2) (fun k' => v2 (ix2 k' d))
         Ideal.div (stepAcc m3 a3 (sc k3 e3) (fun k' => v3 (ix2 k' d))) (stepNorm m3 l3 (sc k3 e3))) := by
  unfold attn
  simp only [pay32_eq, pay30_eq, pay31_eq, pay39_34_eq, pay37_eq, pay38_eq, pay44_eq, pay45_eq]
  simp only [pay2_apply, pay24_apply, pay23_apply, pay25_apply, pay16_apply, pay17_apply, pay18_apply, pay19_apply,
    pay15_apply]

end Cert.KernelIdeal.Block

end
-- ==== Proof.KernelInputs.lean ====
/-
  What the attention kernel's input windows hold at each grid point, as functions of the eight argument arrays.

  The grid has 16 points, point t working on batch t / 2. Before the kernel runs, the program prepares its operands
  from the arguments: the three weight matrices are transposed (the change of number format that follows is the
  identity on extended reals), the transposed key and value weights are laid side by side along the columns into one
  [512, 1024] matrix, the query bias is read as a [1, 512] row, the key and value biases are laid end to end and read
  as a [1, 1024] row, and the eigenvalues e are turned into the gate (1 / (1 + exp (-e))) times the scale constant,
  read as an [8, 1, 2048] array. The kernel's windows then show, at point t: batch t / 2 of x; the whole transposed
  query weights; the whole side-by-side key and value weights; the two bias rows; and batch t / 2 of the scaled gate.

  Each lemma below reads one window at an index and names the entry of the argument array found there: a window whose
  array is an argument is read where its rectangle says (block index times block size plus the coordinate inside the
  block, the block index decided once over the grid); a window whose array the program prepared is first rewritten to
  the preparing operations' term, and that term is read at the index (a transpose swaps the coordinates, a
  concatenation picks the piece the coordinate falls in, a reshape keeps the row-major position, a broadcast of a
  scalar reads the scalar).
-/
import proofs.«414030_j51513837748782_3_alg».proof.Proof.Gen.KernelIdeal.Frame
import proofs.«414030_j51513837748782_3_alg».proof.Proof.Spec
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.Lib.Tactic

noncomputable section

namespace Cert.KernelIdeal.Inputs

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## The eight argument arrays -/

/-- The activations x, [8, 2048, 512]. -/
abbrev X : FVec Ideal S8x2048x512 .f32 := m ((c : Thread nD τ).loc main_arg0)
/-- The eigenvalues e, [8, 2048]. -/
abbrev E : FVec Ideal S8x2048 .f32 := m ((c : Thread nD τ).loc main_arg1)
/-- The query weights, [512, 512]. -/
abbrev Wq : FVec Ideal S512x512 .f32 := m ((c : Thread nD τ).loc main_arg2)
/-- The query bias, [512]. -/
abbrev bq : FVec Ideal S512 .f32 := m ((c : Thread nD τ).loc main_arg3)
/-- The key weights, [512, 512]. -/
abbrev Wk : FVec Ideal S512x512 .f32 := m ((c : Thread nD τ).loc main_arg4)
/-- The key bias, [512]. -/
abbrev bk : FVec Ideal S512 .f32 := m ((c : Thread nD τ).loc main_arg5)
/-- The value weights, [512, 512]. -/
abbrev Wv : FVec Ideal S512x512 .f32 := m ((c : Thread nD τ).loc main_arg6)
/-- The value bias, [512]. -/
abbrev bv : FVec Ideal S512 .f32 := m ((c : Thread nD τ).loc main_arg7)

/-! ## The windows' blocks, at their literal types -/

abbrev xblk (t : Fin cfg0.N) : Vec Ideal S1x2048x512 .f32 := iblk m c 0 t
abbrev wqblk (t : Fin cfg0.N) : Vec Ideal S512x512 .bf16 := iblk m c 1 t
abbrev wkvblk (t : Fin cfg0.N) : Vec Ideal S512x1024 .bf16 := iblk m c 2 t
abbrev bqblk (t : Fin cfg0.N) : Vec Ideal S1x512 .f32 := iblk m c 3 t
abbrev bkvblk (t : Fin cfg0.N) : Vec Ideal S1x1024 .f32 := iblk m c 4 t
abbrev eblk (t : Fin cfg0.N) : Vec Ideal S1x1x2048 .f32 := iblk m c 5 t

/-! ## Where each window's block sits, decided over the grid -/

/-- Point t works on batch t / 2, one of 8. -/
theorem batch_lt (t : Fin cfg0.N) : t.val / 2 < 8 := by
  have := t.isLt; have h : cfg0.N = 16 := N_0; omega

/-- The batch of point t. -/
abbrev batch (t : Fin cfg0.N) : Fin 8 := ⟨t.val / 2, batch_lt t⟩

theorem idx0 : ∀ t : Fin cfg0.N, win0_0.index t (0 : Fin 3) = t.val / 2 ∧ win0_0.index t (1 : Fin 3) = 0 ∧ win0_0.index t (2 : Fin 3) = 0 :=
  (by decide +kernel : ∀ t : Fin grid0.N, win0_0.index t (0 : Fin 3) = t.val / 2 ∧ win0_0.index t (1 : Fin 3) = 0 ∧ win0_0.index t (2 : Fin 3) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 3) = t.val / 2 ∧ win0_5.index t (1 : Fin 3) = 0 ∧ win0_5.index t (2 : Fin 3) = 0 :=
  (by decide +kernel : ∀ t : Fin grid0.N, win0_5.index t (0 : Fin 3) = t.val / 2 ∧ win0_5.index t (1 : Fin 3) = 0 ∧ win0_5.index t (2 : Fin 3) = 0)

/-! ## Window 0: batch t / 2 of x -/

theorem xblk_apply (t : Fin cfg0.N) (r : Fin 2048) (cc : Fin 512) :
    xblk m c t (ix3 0 r cc) = X m c (ix3 (batch t) r cc) := by
  obtain ⟨h0, h1, h2⟩ := idx0 t
  unfold xblk iblk
  rw [View.read_apply]
  show V m c main_arg0 _ = _
  rw [V_main_arg0]
  show m (c.tc.loc main_arg0) _ = m (c.tc.loc main_arg0) _
  congr 1
  funext a
  apply Fin.ext
  match a with
  | ⟨0, _⟩ => show win0_0.index t 0 * 1 + 1 * 0 = t.val / 2; rw [h0]; omega
  | ⟨1, _⟩ => show win0_0.index t 1 * 2048 + 1 * r.val = r.val; rw [h1]; omega
  | ⟨2, _⟩ => show win0_0.index t 2 * 512 + 1 * cc.val = cc.val; rw [h2]; omega

/-! ## Window 1: the query weights, transposed -/

theorem V1_eq : @Eq (FVec Ideal S512x512 .bf16) (V m c main_v1)
    (truncf .bf16 (transpose S512x512 [1, 0] (Wq m c) transposes_S512x512_S512x512_1_0) bitsLt_bf16_f32) := by
  dsimp only [Gen.V, Gen.hostOps0]
  after_results

theorem wqblk_apply (t : Fin cfg0.N) (cc d : Fin 512) :
    wqblk m c t (ix2 cc d) = Wq m c (ix2 d cc) := by
  obtain ⟨h0, h1⟩ := idx1 t
  have hemb : (((cfg0.win 1).blk t).view.emb (ix2 cc d) : S512x512.Idx) = ix2 cc d := by
    funext a; apply Fin.ext
    match a with
    | ⟨0, _⟩ => show win0_1.index t 0 * 512 + 1 * cc.val = cc.val; rw [h0]; omega
    | ⟨1, _⟩ => show win0_1.index t 1 * 512 + 1 * d.val = d.val; rw [h1]; omega
  unfold wqblk iblk
  rw [View.read_apply]
  refine (congrArg (V m c main_v1 : FVec Ideal S512x512 .bf16) hemb).trans ?_
  rw [V1_eq]
  exact transpose_ix2_apply (Wq m c) transposes_S512x512_S512x512_1_0 cc d

/-! ## Window 2: the key and value weights, transposed and laid side by side -/

/-- The transposed key weights. -/
abbrev WkT : FVec Ideal S512x512 .bf16 :=
  truncf .bf16 (transpose S512x512 [1, 0] (Wk m c) transposes_S512x512_S512x512_1_0) bitsLt_bf16_f32
/-- The transposed value weights. -/
abbrev WvT : FVec Ideal S512x512 .bf16 :=
  truncf .bf16 (transpose S512x512 [1, 0] (Wv m c) transposes_S512x512_S512x512_1_0) bitsLt_bf16_f32

theorem V6_eq : @Eq (FVec Ideal S512x1024 .bf16) (V m c main_v6)
    (concatenate S512x1024 1 [⟨S512x512, WkT m c⟩, ⟨S512x512, WvT m c⟩] concatenates_S512x512_S512x512_S512x1024_d1) := by
  dsimp only [Gen.V, Gen.hostOps0]
  after_results

theorem wkv_emb (t : Fin cfg0.N) (cc : Fin 512) (e : Fin 1024) :
    (((cfg0.win 2).blk t).view.emb (ix2 cc e) : S512x1024.Idx) = ix2 cc e := by
  obtain ⟨h0, h1⟩ := idx2 t
  funext a; apply Fin.ext
  match a with
  | ⟨0, _⟩ => show win0_2.index t 0 * 512 + 1 * cc.val = cc.val; rw [h0]; omega
  | ⟨1, _⟩ => show win0_2.index t 1 * 1024 + 1 * e.val = e.val; rw [h1]; omega

theorem wkvblk_apply_lo (t : Fin cfg0.N) (cc d : Fin 512) :
    wkvblk m c t (ix2 cc ⟨d.val, by have := d.isLt; omega⟩) = Wk m c (ix2 d cc) := by
  unfold wkvblk iblk
  rw [View.read_apply]
  refine (congrArg (V m c main_v6 : FVec Ideal S512x1024 .bf16) (wkv_emb t cc _)).trans ?_
  rw [V6_eq]
  refine (concatenate_pair_apply_left (t := S512x1024) (s₁ := S512x512) (s₂ := S512x512) 1 (WkT m c) (WvT m c)
    concatenates_S512x512_S512x512_S512x1024_d1 _ rfl (ix2 cc d) (fun b => ?_)).trans ?_
  · match b with
    | ⟨0, _⟩ => rfl
    | ⟨1, _⟩ => rfl
  · exact transpose_ix2_apply (Wk m c) transposes_S512x512_S512x512_1_0 cc d

theorem wkvblk_apply_hi (t : Fin cfg0.N) (cc d : Fin 512) :
    wkvblk m c t (ix2 cc ⟨512 + d.val, by have := d.isLt; omega⟩) = Wv m c (ix2 d cc) := by
  unfold wkvblk iblk
  rw [View.read_apply]
  refine (congrArg (V m c main_v6 : FVec Ideal S512x1024 .bf16) (wkv_emb t cc _)).trans ?_
  rw [V6_eq]
  refine (concatenate_pair_apply_right (t := S512x1024) (s₁ := S512x512) (s₂ := S512x512) 1 (WkT m c) (WvT m c)
    concatenates_S512x512_S512x512_S512x1024_d1 _ rfl rfl (ix2 cc d) (fun b hb => ?_) ?_).trans ?_
  · match b with
    | ⟨0, _⟩ => rfl
    | ⟨1, _⟩ => exact absurd rfl hb
  · show d.val + 512 = 512 + d.val
    omega
  · exact transpose_ix2_apply (Wv m c) transposes_S512x512_S512x512_1_0 cc d

/-! ## Window 3: the query bias as a row -/

theorem V7_eq : @Eq (FVec Ideal S1x512 .f32) (V m c main_v7) (shapeCast S1x512 (bq m c) shapeCasts_S512_S1x512) := by
  dsimp only [Gen.V, Gen.hostOps0]
  after_results
  rfl

theorem bqblk_apply (t : Fin cfg0.N) (d : Fin 512) :
    bqblk m c t (ix2 0 d) = bq m c (ix1 d) := by
  obtain ⟨h0, h1⟩ := idx3 t
  have hemb : (((cfg0.win 3).blk t).view.emb (ix2 0 d) : S1x512.Idx) = ix2 0 d := by
    funext a; apply Fin.ext
    match a with
    | ⟨0, _⟩ => show win0_3.index t 0 * 1 + 1 * 0 = 0; rw [h0]
    | ⟨1, _⟩ => show win0_3.index t 1 * 512 + 1 * d.val = d.val; rw [h1]; omega
  unfold bqblk iblk
  rw [View.read_apply]
  refine (congrArg (V m c main_v7 : FVec Ideal S1x512 .f32) hemb).trans ?_
  rw [V7_eq]
  exact shapeCast_a_1a_apply (bq m c) shapeCasts_S512_S1x512 0 d

/-! ## Window 4: the key and value biases laid end to end, as a row -/

/-- The key bias followed by the value bias, [1024]. -/
abbrev bkv : FVec Ideal S1024 .f32 :=
  concatenate S1024 0 [⟨S512, bk m c⟩, ⟨S512, bv m c⟩] concatenates_S512_S512_S1024_d0

theorem V9_eq : @Eq (FVec Ideal S1x1024 .f32) (V m c main_v9) (shapeCast S1x1024 (bkv m c) shapeCasts_S1024_S1x1024) := by
  dsimp only [Gen.V, Gen.hostOps0]
  after_results
  rfl

theorem bkv_emb (t : Fin cfg0.N) (e : Fin 1024) :
    (((cfg0.win 4).blk t).view.emb (ix2 0 e) : S1x1024.Idx) = ix2 0 e := by
  obtain ⟨h0, h1⟩ := idx4 t
  funext a; apply Fin.ext
  match a with
  | ⟨0, _⟩ => show win0_4.index t 0 * 1 + 1 * 0 = 0; rw [h0]
  | ⟨1, _⟩ => show win0_4.index t 1 * 1024 + 1 * e.val = e.val; rw [h1]; omega

theorem bkvblk_apply_lo (t : Fin cfg0.N) (d : Fin 512) :
    bkvblk m c t (ix2 0 ⟨d.val, by have := d.isLt; omega⟩) = bk m c (ix1 d) := by
  unfold bkvblk iblk
  rw [View.read_apply]
  refine (congrArg (V m c main_v9 : FVec Ideal S1x1024 .f32) (bkv_emb t _)).trans ?_
  rw [V9_eq]
  refine (shapeCast_a_1a_apply (bkv m c) shapeCasts_S1024_S1x1024 0 _).trans ?_
  refine concatenate_pair_apply_left (t := S1024) (s₁ := S512) (s₂ := S512) 0 (bk m c) (bv m c)
    concatenates_S512_S512_S1024_d0 _ rfl (ix1 d) (fun b => ?_)
  match b with
  | ⟨0, _⟩ => rfl

theorem bkvblk_apply_hi (t : Fin cfg0.N) (d : Fin 512) :
    bkvblk m c t (ix2 0 ⟨512 + d.val, by have := d.isLt; omega⟩) = bv m c (ix1 d) := by
  unfold bkvblk iblk
  rw [View.read_apply]
  refine (congrArg (V m c main_v9 : FVec Ideal S1x1024 .f32) (bkv_emb t _)).trans ?_
  rw [V9_eq]
  refine (shapeCast_a_1a_apply (bkv m c) shapeCasts_S1024_S1x1024 0 _).trans ?_
  refine concatenate_pair_apply_right (t := S1024) (s₁ := S512) (s₂ := S512) 0 (bk m c) (bv m c)
    concatenates_S512_S512_S1024_d0 _ rfl rfl (ix1 d) (fun b hb => ?_) ?_
  · match b with
    | ⟨0, _⟩ => exact absurd rfl hb
  · show d.val + 512 = 512 + d.val
    omega

/-! ## Window 5: batch t / 2 of the gate times the scale -/

/-- The constant one at every entry of an [8, 2048] array. -/
abbrev ones : FVec Ideal S8x2048 .f32 :=
  broadcastInDim S8x2048 ![] bcast_S_S8x2048 (constant (F := Ideal) S_ .f32 0x3F800000#32)
/-- The scale constant at every entry of an [8, 2048] array. -/
abbrev scales : FVec Ideal S8x2048 .f32 :=
  broadcastInDim S8x2048 ![] bcast_S_S8x2048 (constant (F := Ideal) S_ .f32 0x3D3504F3#32)
/-- The gate times the scale, as the program computes it: (1 / (1 + exp (-e))) * scale, entry by entry. -/
abbrev eig : FVec Ideal S8x2048 .f32 :=
  mulf (Host.divf (ones) (addf (ones) (Host.exp (Host.negf (E m c))))) (scales)

theorem V18_eq : @Eq (FVec Ideal S8x1x2048 .f32) (V m c main_v18)
    (shapeCast S8x1x2048 (eig m c) shapeCasts_S8x2048_S8x1x2048) := by
  dsimp only [Gen.V, Gen.hostOps0]
  after_results
  rfl

/-- Entry (b, k) of that array is the gate of key k of batch b times the scale. -/
theorem eig_apply (b : Fin 8) (k : Fin 2048) :
    eig m c (ix2 b k) = Cert.Spec.gate (E m c) b k * Cert.Spec.scale := rfl

theorem eblk_apply (t : Fin cfg0.N) (k : Fin 2048) :
    eblk m c t (ix3 0 0 k) = Cert.Spec.gate (E m c) (batch t) k * Cert.Spec.scale := by
  obtain ⟨h0, h1, h2⟩ := idx5 t
  have hemb : (((cfg0.win 5).blk t).view.emb (ix3 0 0 k) : S8x1x2048.Idx) = ix3 (batch t) 0 k := by
    funext a; apply Fin.ext
    match a with
    | ⟨0, _⟩ => show win0_5.index t 0 * 1 + 1 * 0 = t.val / 2; rw [h0]; omega
    | ⟨1, _⟩ => show win0_5.index t 1 * 1 + 1 * 0 = 0; rw [h1]
    | ⟨2, _⟩ => show win0_5.index t 2 * 2048 + 1 * k.val = k.val; rw [h2]; omega
  unfold eblk iblk
  rw [View.read_apply]
  refine (congrArg (V m c main_v18 : FVec Ideal S8x1x2048 .f32) hemb).trans ?_
  rw [V18_eq]
  refine (shapeCast_apply (eig m c) shapeCasts_S8x2048_S8x1x2048 _ (ix2 (batch t) k) ?_).trans (eig_apply m c _ k)
  rw [Shape.rowMajor_val_two, Shape.rowMajor_val_three]
  show t.val / 2 * 2048 + k.val = (t.val / 2 * 1 + 0) * 2048 + k.val
  omega

/-! ## Points of one batch see the same blocks of x and of the gate -/

theorem xblk_congr (t t' : Fin cfg0.N) (h : t.val / 2 = t'.val / 2) : xblk m c t = xblk m c t' := by
  funext j
  have hj : j = ix3 (n0 := 1) (n1 := 2048) (n2 := 512) 0 (j 1) (j 2) := by
    funext a
    match a with
    | ⟨0, _⟩ => exact Subsingleton.elim (α := Fin 1) _ _
    | ⟨1, _⟩ => rfl
    | ⟨2, _⟩ => rfl
  rw [hj]
  exact (xblk_apply m c t _ _).trans
    ((congrArg (fun b => X m c (ix3 b (j 1) (j 2))) (Fin.ext h : batch t = batch t')).trans (xblk_apply m c t' _ _).symm)

theorem eblk_congr (t t' : Fin cfg0.N) (h : t.val / 2 = t'.val / 2) : eblk m c t = eblk m c t' := by
  funext j
  have hj : j = ix3 (n0 := 1) (n1 := 1) (n2 := 2048) 0 0 (j 2) := by
    funext a
    match a with
    | ⟨0, _⟩ => exact Subsingleton.elim (α := Fin 1) _ _
    | ⟨1, _⟩ => exact Subsingleton.elim (α := Fin 1) _ _
    | ⟨2, _⟩ => rfl
  rw [hj]
  exact (eblk_apply m c t _).trans
    ((congrArg (fun b => Cert.Spec.gate (E m c) b (j 2) * Cert.Spec.scale) (Fin.ext h : batch t = batch t')).trans
      (eblk_apply m c t' _).symm)

end Cert.KernelIdeal.Inputs

end
-- ==== Proof.KernelFinal.lean ====
/-
  What each grid point of the attention kernel writes back, entry by entry, is the specification.

  A grid point t works on batch t / 2 and on the query rows 1024 (t mod 2) .. 1024 (t mod 2) + 1023 of that batch.
  The key and value scratch the point reads was built by the first point of its batch: row k of the key scratch is
  the key projection of row k of the batch, row k of the value scratch the value projection. The output block read
  at row r and column d is therefore the four-block online softmax of the scores of query row 1024 (t mod 2) + r
  against all 2048 keys, weighted over the value column d, and that is the softmax-weighted average the
  specification names.
-/
import proofs.«414030_j51513837748782_3_alg».proof.Proof.Gen.KernelIdeal.Value
import proofs.«414030_j51513837748782_3_alg».proof.Proof.KernelPieces
import proofs.«414030_j51513837748782_3_alg».proof.Proof.KernelBlock
import proofs.«414030_j51513837748782_3_alg».proof.Proof.KernelInputs
import proofs.«414030_j51513837748782_3_alg».proof.Proof.Spec
import Idealize.ShloMosaic.Lib.ValueIdx
import Idealize.ShloMosaic.Lib.Pipeline.Value

noncomputable section

open scoped BigOperators

namespace Cert.KernelIdeal.Final

open Idealize.ShloMosaic Idealize.ShloMosaic.TcCoe Idealize.ShloMosaic.ValueIdx Idealize.SL.Sem
open Cert.KernelIdeal Cert.KernelIdeal.Gen Cert.KernelIdeal.Inputs Cert.KernelIdeal.Pieces Cert.KernelIdeal.Block
open Cert.Lib.OnlineSoftmax

/-! ## A load through a unit rectangle is a shifted read -/

/-- Rows o .. o + 511 of a [1, 2048, 512] block. -/
theorem ld_rows512 {Val : EltTy → Type} {e : EltTy} (x0 : S1x2048x512.Idx → Val e) (o : Nat)
    (inb : ∀ a, (![0, o, 0] : Fin 3 → Nat) a + S1x512x512.size a ≤ S1x2048x512.size a) (r c : Fin 512) (h : o + r.val < 2048) :
    View.ld x0 (Rect.unit (s := S1x2048x512) ![0, o, 0] S1x512x512.size inb) (ix3 0 r c) = x0 (ix3 0 ⟨o + r.val, h⟩ c) := by
  show x0 _ = x0 _
  congr 1
  funext a
  apply Fin.ext
  match a with
  | ⟨0, _⟩ => rfl
  | ⟨1, _⟩ => show o + 1 * r.val = o + r.val; omega
  | ⟨2, _⟩ => show 0 + 1 * c.val = c.val; omega

/-- Rows o .. o + 1023 of a [1, 2048, 512] block. -/
theorem ld_rows1024 {Val : EltTy → Type} {e : EltTy} (x0 : S1x2048x512.Idx → Val e) (off : Fin 3 → Nat) (o : Nat) (hoff : off = ![0, o, 0])
    (inb : ∀ a, off a + S1x1024x512.size a ≤ S1x2048x512.size a) (r : Fin 1024) (c : Fin 512) (h : o + r.val < 2048) :
    View.ld x0 (Rect.unit (s := S1x2048x512) off S1x1024x512.size inb) (ix3 0 r c) = x0 (ix3 0 ⟨o + r.val, h⟩ c) := by
  subst hoff
  show x0 _ = x0 _
  congr 1
  funext a
  apply Fin.ext
  match a with
  | ⟨0, _⟩ => rfl
  | ⟨1, _⟩ => show o + 1 * r.val = o + r.val; omega
  | ⟨2, _⟩ => show 0 + 1 * c.val = c.val; omega

/-- Rows o .. o + 511 of a [2048, 512] scratch. -/
theorem ld_scratch {Val : EltTy → Type} {e : EltTy} (K : S2048x512.Idx → Val e) (o : Nat)
    (inb : ∀ a, (![o, 0] : Fin 2 → Nat) a + S512x512.size a ≤ S2048x512.size a) (k' d : Fin 512) (h : o + k'.val < 2048) :
    View.ld K (Rect.unit (s := S2048x512) ![o, 0] S512x512.size inb) (ix2 k' d) = K (ix2 ⟨o + k'.val, h⟩ d) := by
  show K _ = K _
  congr 1
  funext a
  apply Fin.ext
  match a with
  | ⟨0, _⟩ => show o + 1 * k'.val = o + k'.val; omega
  | ⟨1, _⟩ => show 0 + 1 * d.val = d.val; omega

/-- Lanes o .. o + 511 of a [1, 1, 2048] block. -/
theorem ld_lanes {Val : EltTy → Type} {e : EltTy} (x5 : S1x1x2048.Idx → Val e) (o : Nat)
    (inb : ∀ a, (![0, 0, o] : Fin 3 → Nat) a + S1x1x512.size a ≤ S1x1x2048.size a) (k' : Fin 512) (h : o + k'.val < 2048) :
    View.ld x5 (Rect.unit (s := S1x1x2048) ![0, 0, o] S1x1x512.size inb) (ix3 0 0 k') = x5 (ix3 0 0 ⟨o + k'.val, h⟩) := by
  show x5 _ = x5 _
  congr 1
  funext a
  apply Fin.ext
  match a with
  | ⟨0, _⟩ => rfl
  | ⟨1, _⟩ => rfl
  | ⟨2, _⟩ => show o + 1 * k'.val = o + k'.val; omega

/-! ## The key and value scratch after a rebuild, entry by entry -/

/-- Row k of the input block times column j of the stacked key and value weights, plus the stacked bias. -/
def rowProj (x0 : Vec Ideal S1x2048x512 .f32) (x2 : Vec Ideal S512x1024 .bf16) (x4 : Vec Ideal S1x1024 .f32)
    (k : Fin 2048) (j : Fin 1024) : EReal :=
  (∑ c : Fin 512, x0 (ix3 0 k c) * x2 (ix2 c j)) + x4 (ix2 0 j)

theorem lo_lt (d : Fin 512) : d.val < 1024 := by have := d.isLt; omega
theorem hi_lt (d : Fin 512) : 512 + d.val < 1024 := by have := d.isLt; omega

/-- The key scratch as one function of its index. -/
def kG (x0 : Vec Ideal S1x2048x512 .f32) (x2 : Vec Ideal S512x1024 .bf16) (x4 : Vec Ideal S1x1024 .f32) :
    S2048x512.Idx → Elt Ideal .bf16 := fun y => rowProj x0 x2 x4 (y 0) ⟨(y 1).val, lo_lt (y 1)⟩
/-- The value scratch as one function of its index. -/
def vG (x0 : Vec Ideal S1x2048x512 .f32) (x2 : Vec Ideal S512x1024 .bf16) (x4 : Vec Ideal S1x1024 .f32) :
    S2048x512.Idx → Elt Ideal .bf16 := fun y => rowProj x0 x2 x4 (y 0) ⟨512 + (y 1).val, hi_lt (y 1)⟩

/-- One stored row block of the key scratch is the block of kG its rectangle names. -/
theorem kPiece (x0 : Vec Ideal S1x2048x512 .f32) (x2 : Vec Ideal S512x1024 .bf16) (x4 : Vec Ideal S1x1024 .f32) (o : Nat)
    (ho : o + 512 ≤ 2048)
    (inb3 : ∀ a, (![0, o, 0] : Fin 3 → Nat) a + S1x512x512.size a ≤ S1x2048x512.size a)
    (inb2 : ∀ a, (![o, 0] : Fin 2 → Nat) a + S512x512.size a ≤ S2048x512.size a) (x : S512x512.Idx) :
    k0_pay4 (View.ld x0 (Rect.unit (s := S1x2048x512) ![0, o, 0] S1x512x512.size inb3)) x2 x4 x
      = kG x0 x2 x4 ((Rect.unit (s := S2048x512) ![o, 0] S512x512.size inb2).emb x) := by
  obtain ⟨k', d, rfl⟩ : ∃ k' d, x = ix2 k' d := ⟨x 0, x 1, eq_ix2 x⟩
  refine (kChunk_apply _ x2 x4 k' d).trans ?_
  unfold kG rowProj
  have hk := k'.isLt
  refine add_congr (Finset.sum_congr rfl fun c _ => mul_congr ?_ ?_) ?_
  · refine (ld_rows512 x0 o inb3 k' c (by omega)).trans (congrArg x0 ?_)
    exact congrArg (fun r : Fin 2048 => (ix3 (0 : Fin 1) r c : S1x2048x512.Idx))
      (Fin.ext (by show o + k'.val = o + 1 * k'.val; omega))
  · exact congrArg x2 (congrArg (fun j : Fin 1024 => (ix2 c j : S512x1024.Idx))
      (Fin.ext (by show d.val = 0 + 1 * d.val; omega)))
  · exact congrArg x4 (congrArg (fun j : Fin 1024 => (ix2 (0 : Fin 1) j : S1x1024.Idx))
      (Fin.ext (by show d.val = 0 + 1 * d.val; omega)))

/-- One stored row block of the value scratch is the block of vG its rectangle names. -/
theorem vPiece (x0 : Vec Ideal S1x2048x512 .f32) (x2 : Vec Ideal S512x1024 .bf16) (x4 : Vec Ideal S1x1024 .f32) (o : Nat)
    (ho : o + 512 ≤ 2048)
    (inb3 : ∀ a, (![0, o, 0] : Fin 3 → Nat) a + S1x512x512.size a ≤ S1x2048x512.size a)
    (inb2 : ∀ a, (![o, 0] : Fin 2 → Nat) a + S512x512.size a ≤ S2048x512.size a) (x : S512x512.Idx) :
    k0_pay5 (View.ld x0 (Rect.unit (s := S1x2048x512) ![0, o, 0] S1x512x512.size inb3)) x2 x4 x
      = vG x0 x2 x4 ((Rect.unit (s := S2048x512) ![o, 0] S512x512.size inb2).emb x) := by
  obtain ⟨k', d, rfl⟩ : ∃ k' d, x = ix2 k' d := ⟨x 0, x 1, eq_ix2 x⟩
  refine (vChunk_apply _ x2 x4 k' d).trans ?_
  unfold vG rowProj
  have hk := k'.isLt
  refine add_congr (Finset.sum_congr rfl fun c _ => mul_congr ?_ ?_) ?_
  · refine (ld_rows512 x0 o inb3 k' c (by omega)).trans (congrArg x0 ?_)
    exact congrArg (fun r : Fin 2048 => (ix3 (0 : Fin 1) r c : S1x2048x512.Idx))
      (Fin.ext (by show o + k'.val = o + 1 * k'.val; omega))
  · exact congrArg x2 (congrArg (fun j : Fin 1024 => (ix2 c j : S512x1024.Idx))
      (Fin.ext (by show 512 + d.val = 512 + (0 + 1 * d.val); omega)))
  · exact congrArg x4 (congrArg (fun j : Fin 1024 => (ix2 (0 : Fin 1) j : S1x1024.Idx))
      (Fin.ext (by show 512 + d.val = 512 + (0 + 1 * d.val); omega)))

/-- The key scratch after a rebuild, at (k, d): row k of the input block projected by the key weights. -/
theorem kBuild_apply (x0 : Vec Ideal S1x2048x512 .f32) (x2 : Vec Ideal S512x1024 .bf16) (x4 : Vec Ideal S1x1024 .f32)
    (k : Fin 2048) (d : Fin 512) :
    kBuild x0 x2 x4 (ix2 k d) = rowProj x0 x2 x4 k ⟨d.val, lo_lt d⟩ := by
  unfold kBuild
  refine (View.canon_apply_of_pieces (kG x0 x2 x4) _ ?_ (ix2 k d) (cover_rows _ _ _ _ _ _ _ _ _)).trans rfl
  intro p hp x
  simp only [List.mem_cons, List.not_mem_nil, or_false] at hp
  rcases hp with rfl | rfl | rfl | rfl
  · exact kPiece x0 x2 x4 1536 (by omega) inb_S1x2048x512_S1x512x512_0_1536_0 inb_S2048x512_S512x512_1536_0 x
  · exact kPiece x0 x2 x4 1024 (by omega) inb_S1x2048x512_S1x512x512_0_1024_0 inb_S2048x512_S512x512_1024_0 x
  · exact kPiece x0 x2 x4 512 (by omega) inb_S1x2048x512_S1x512x512_0_512_0 inb_S2048x512_S512x512_512_0 x
  · exact kPiece x0 x2 x4 0 (by omega) inb_S1x2048x512_S1x512x512_0_0_0 inb_S2048x512_S512x512_0_0 x

/-- The value scratch after a rebuild, at (k, d): row k of the input block projected by the value weights. -/
theorem vBuild_apply (x0 : Vec Ideal S1x2048x512 .f32) (x2 : Vec Ideal S512x1024 .bf16) (x4 : Vec Ideal S1x1024 .f32)
    (k : Fin 2048) (d : Fin 512) :
    vBuild x0 x2 x4 (ix2 k d) = rowProj x0 x2 x4 k ⟨512 + d.val, hi_lt d⟩ := by
  unfold vBuild
  refine (View.canon_apply_of_pieces (vG x0 x2 x4) _ ?_ (ix2 k d) (cover_rows _ _ _ _ _ _ _ _ _)).trans rfl
  intro p hp x
  simp only [List.mem_cons, List.not_mem_nil, or_false] at hp
  rcases hp with rfl | rfl | rfl | rfl
  · exact vPiece x0 x2 x4 1536 (by omega) inb_S1x2048x512_S1x512x512_0_1536_0 inb_S2048x512_S512x512_1536_0 x
  · exact vPiece x0 x2 x4 1024 (by omega) inb_S1x2048x512_S1x512x512_0_1024_0 inb_S2048x512_S512x512_1024_0 x
  · exact vPiece x0 x2 x4 512 (by omega) inb_S1x2048x512_S1x512x512_0_512_0 inb_S2048x512_S512x512_512_0 x
  · exact vPiece x0 x2 x4 0 (by omega) inb_S1x2048x512_S1x512x512_0_0_0 inb_S2048x512_S512x512_0_0 x

/-! ## Four blocks of the online softmax, as one function of the blocks' scores and values -/

/-- The online softmax over four blocks from the starting maximum m0, normaliser zero and weighted sum zero, divided out. -/
def fold4 (m0 : EReal) (s0 s1 s2 s3 v0 v1 v2 v3 : Fin 512 → EReal) : EReal :=
  let m1 := stepMax m0 s0; let l1 := stepNorm m0 0 s0; let a1 := stepAcc m0 0 s0 v0
  let m2 := stepMax m1 s1; let l2 := stepNorm m1 l1 s1; let a2 := stepAcc m1 a1 s1 v1
  let m3 := stepMax m2 s2; let l3 := stepNorm m2 l2 s2; let a3 := stepAcc m2 a2 s2 v2
  Ideal.div (stepAcc m3 a3 s3 v3) (stepNorm m3 l3 s3)

theorem fold4_congr (m0 : EReal) {s0 s1 s2 s3 v0 v1 v2 v3 s0' s1' s2' s3' v0' v1' v2' v3' : Fin 512 → EReal}
    (h0 : s0 = s0') (h1 : s1 = s1') (h2 : s2 = s2') (h3 : s3 = s3')
    (g0 : v0 = v0') (g1 : v1 = v1') (g2 : v2 = v2') (g3 : v3 = v3') :
    fold4 m0 s0 s1 s2 s3 v0 v1 v2 v3 = fold4 m0 s0' s1' s2' s3' v0' v1' v2' v3' := by
  subst h0 h1 h2 h3 g0 g1 g2 g3; rfl

theorem key_val (j : Fin 4) (k' : Fin 512) : (Cert.Spec.key j k').val = 512 * j.val + k'.val := rfl

section Point

variable (X : Cert.Spec.SX.Idx → EReal) (E : Cert.Spec.SE.Idx → EReal) (Wq Wk Wv : Cert.Spec.SW.Idx → EReal)
  (bq bk bv : Cert.Spec.SB.Idx → EReal)

/-- The scores of one key block, as the kernel computes them from its loaded blocks, are the specification's scores
    of the block's keys. -/
theorem sc_eq (b : Fin 8) (row : Fin 2048) (Q : Fin 512 → EReal) (hQ : ∀ dd, Q dd = Cert.Spec.proj X Wq bq b row dd)
    (K : Vec Ideal S2048x512 .bf16) (x5 : Vec Ideal S1x1x2048 .f32)
    (hK : ∀ k d, K (ix2 k d) = Cert.Spec.proj X Wk bk b k d)
    (he : ∀ k, x5 (ix3 0 0 k) = Cert.Spec.gate E b k * Cert.Spec.scale)
    (j : Fin 4) (o : Nat) (ho : o = 512 * j.val)
    (inb2 : ∀ a, (![o, 0] : Fin 2 → Nat) a + S512x512.size a ≤ S2048x512.size a)
    (inb3 : ∀ a, (![0, 0, o] : Fin 3 → Nat) a + S1x1x512.size a ≤ S1x1x2048.size a) :
    (fun k' : Fin 512 => (∑ dd : Fin 512, Q dd * View.ld K (Rect.unit (s := S2048x512) ![o, 0] S512x512.size inb2) (ix2 k' dd))
        * View.ld x5 (Rect.unit (s := S1x1x2048) ![0, 0, o] S1x1x512.size inb3) (ix3 0 0 k'))
      = fun k' => Cert.Spec.score X E Wq bq Wk bk b row (Cert.Spec.key j k') := by
  funext k'
  have hlt : o + k'.val < 2048 := by have := j.isLt; have := k'.isLt; omega
  have hkey : (⟨o + k'.val, hlt⟩ : Fin 2048) = Cert.Spec.key j k' := Fin.ext (by rw [key_val]; show o + k'.val = _; omega)
  unfold Cert.Spec.score Cert.Spec.qk
  refine mul_congr (Finset.sum_congr rfl fun dd _ => mul_congr (hQ dd) ?_) ?_
  · exact (ld_scratch K o inb2 k' dd hlt).trans ((hK _ dd).trans (congrArg (fun k => Cert.Spec.proj X Wk bk b k dd) hkey))
  · exact (ld_lanes x5 o inb3 k' hlt).trans ((he _).trans (congrArg (fun k => Cert.Spec.gate E b k * Cert.Spec.scale) hkey))

/-- The value column of one key block is the specification's value projection of the block's keys. -/
theorem vc_eq (b : Fin 8) (V : Vec Ideal S2048x512 .bf16)
    (hV : ∀ k d, V (ix2 k d) = Cert.Spec.proj X Wv bv b k d) (d : Fin 512)
    (j : Fin 4) (o : Nat) (ho : o = 512 * j.val)
    (inb2 : ∀ a, (![o, 0] : Fin 2 → Nat) a + S512x512.size a ≤ S2048x512.size a) :
    (fun k' : Fin 512 => View.ld V (Rect.unit (s := S2048x512) ![o, 0] S512x512.size inb2) (ix2 k' d))
      = fun k' => Cert.Spec.proj X Wv bv b (Cert.Spec.key j k') d := by
  funext k'
  have hlt : o + k'.val < 2048 := by have := j.isLt; have := k'.isLt; omega
  have hkey : (⟨o + k'.val, hlt⟩ : Fin 2048) = Cert.Spec.key j k' := Fin.ext (by rw [key_val]; show o + k'.val = _; omega)
  exact (ld_scratch V o inb2 k' d hlt).trans ((hV _ d).trans (congrArg (fun k => Cert.Spec.proj X Wv bv b k d) hkey))

/-- THE VALUE OF ONE POINT. The attention of the query rows o .. o + 1023 of batch b over a key scratch holding the key
    projections and a value scratch holding the value projections of the batch, with the gate times the scale as the
    per-key weights, is the specification at (b, o + r, d). -/
theorem attn_spec (hX : ∀ i, Cert.Spec.IsReal (X i)) (hE : ∀ i, Cert.Spec.IsReal (E i)) (hWq : ∀ i, Cert.Spec.IsReal (Wq i))
    (hbq : ∀ i, Cert.Spec.IsReal (bq i)) (hWk : ∀ i, Cert.Spec.IsReal (Wk i)) (hbk : ∀ i, Cert.Spec.IsReal (bk i))
    (hWv : ∀ i, Cert.Spec.IsReal (Wv i)) (hbv : ∀ i, Cert.Spec.IsReal (bv i))
    (b : Fin 8) (o : Nat) (ho : o + 1024 ≤ 2048)
    (xq : Vec Ideal S1x1024x512 .f32) (wq : Vec Ideal S512x512 .bf16) (bqr : Vec Ideal S1x512 .f32)
    (K V : Vec Ideal S2048x512 .bf16) (x5 : Vec Ideal S1x1x2048 .f32)
    (hxq : ∀ (r : Fin 1024) (c : Fin 512) (h : o + r.val < 2048), xq (ix3 0 r c) = X (ix3 b ⟨o + r.val, h⟩ c))
    (hwq : ∀ c d : Fin 512, wq (ix2 c d) = Wq (ix2 d c))
    (hbqr : ∀ d : Fin 512, bqr (ix2 0 d) = bq (ix1 d))
    (hK : ∀ k d, K (ix2 k d) = Cert.Spec.proj X Wk bk b k d)
    (hV : ∀ k d, V (ix2 k d) = Cert.Spec.proj X Wv bv b k d)
    (he : ∀ k, x5 (ix3 0 0 k) = Cert.Spec.gate E b k * Cert.Spec.scale)
    (r : Fin 1024) (d : Fin 512) (h : o + r.val < 2048) :
    attn xq wq bqr
        (View.ld K (Rect.unit (s := S2048x512) ![0, 0] S512x512.size inb_S2048x512_S512x512_0_0)) (View.ld K (Rect.unit (s := S2048x512) ![512, 0] S512x512.size inb_S2048x512_S512x512_512_0)) (View.ld K (Rect.unit (s := S2048x512) ![1024, 0] S512x512.size inb_S2048x512_S512x512_1024_0)) (View.ld K (Rect.unit (s := S2048x512) ![1536, 0] S512x512.size inb_S2048x512_S512x512_1536_0))
        (View.ld V (Rect.unit (s := S2048x512) ![0, 0] S512x512.size inb_S2048x512_S512x512_0_0)) (View.ld V (Rect.unit (s := S2048x512) ![512, 0] S512x512.size inb_S2048x512_S512x512_512_0)) (View.ld V (Rect.unit (s := S2048x512) ![1024, 0] S512x512.size inb_S2048x512_S512x512_1024_0)) (View.ld V (Rect.unit (s := S2048x512) ![1536, 0] S512x512.size inb_S2048x512_S512x512_1536_0))
        (View.ld x5 (Rect.unit (s := S1x1x2048) ![0, 0, 0] S1x1x512.size inb_S1x1x2048_S1x1x512_0_0_0)) (View.ld x5 (Rect.unit (s := S1x1x2048) ![0, 0, 512] S1x1x512.size inb_S1x1x2048_S1x1x512_0_0_512)) (View.ld x5 (Rect.unit (s := S1x1x2048) ![0, 0, 1024] S1x1x512.size inb_S1x1x2048_S1x1x512_0_0_1024)) (View.ld x5 (Rect.unit (s := S1x1x2048) ![0, 0, 1536] S1x1x512.size inb_S1x1x2048_S1x1x512_0_0_1536))
        (ix3 0 r d)
      = Cert.Spec.G X E Wq bq Wk bk Wv bv (ix3 b ⟨o + r.val, h⟩ d) := by
  refine (attn_apply xq wq bqr _ _ _ _ _ _ _ _ _ _ _ _ r d).trans ?_
  have hQ : ∀ dd : Fin 512, (∑ c : Fin 512, xq (ix3 0 r c) * wq (ix2 c dd)) + bqr (ix2 0 dd)
      = Cert.Spec.proj X Wq bq b ⟨o + r.val, h⟩ dd := fun dd => by
    unfold Cert.Spec.proj
    exact add_congr (Finset.sum_congr rfl fun c _ => mul_congr (hxq r c h) (hwq c dd)) (hbqr dd)
  show fold4 (Ideal.ofBits .f32 0xFF333332#32) _ _ _ _ _ _ _ _ = _
  refine (fold4_congr _
    (sc_eq X E Wq Wk bq bk b ⟨o + r.val, h⟩ _ hQ K x5 hK he 0 0 rfl _ _)
    (sc_eq X E Wq Wk bq bk b ⟨o + r.val, h⟩ _ hQ K x5 hK he 1 512 rfl _ _)
    (sc_eq X E Wq Wk bq bk b ⟨o + r.val, h⟩ _ hQ K x5 hK he 2 1024 rfl _ _)
    (sc_eq X E Wq Wk bq bk b ⟨o + r.val, h⟩ _ hQ K x5 hK he 3 1536 rfl _ _)
    (vc_eq X Wv bv b V hV d 0 0 rfl _)
    (vc_eq X Wv bv b V hV d 1 512 rfl _)
    (vc_eq X Wv bv b V hV d 2 1024 rfl _)
    (vc_eq X Wv bv b V hV d 3 1536 rfl _)).trans ?_
  exact Cert.Spec.online_four (fun k => Cert.Spec.score X E Wq bq Wk bk b ⟨o + r.val, h⟩ k)
    (fun k => Cert.Spec.proj X Wv bv b k d)
    (fun k => Cert.Spec.score_real hX hE hWq hbq hWk hbk b _ k) (fun k => Cert.Spec.proj_real hX hWv hbv b k d)
    _ Cert.Spec.start_real

end Point

/-! ## Where the output block sits and which rows a point reads, decided over the grid -/

theorem idx6 : ∀ t : Fin cfg0.N, win0_6.index t (0 : Fin 3) = t.val / 2 ∧ win0_6.index t (1 : Fin 3) = t.val % 2
    ∧ win0_6.index t (2 : Fin 3) = 0 ∧ (grid0.coords t 1).val = t.val % 2 :=
  (by decide +kernel : ∀ t : Fin grid0.N, win0_6.index t (0 : Fin 3) = t.val / 2 ∧ win0_6.index t (1 : Fin 3) = t.val % 2
    ∧ win0_6.index t (2 : Fin 3) = 0 ∧ (grid0.coords t 1).val = t.val % 2)

section Run

variable (m : (ℓ : Loc nD τ sig) → Buf (Elt Ideal) ℓ) (c : Dev nD)

/-! ## The key and value scratch a point reads -/

/-- After a point that rebuilds it, the key scratch is the rebuilt one of that point's blocks. -/
theorem scratchK (t : Fin cfg0.N) (h0 : t.val % 2 = 0) :
    (outsAt0 m c t.val t.isLt).2.1 = kBuild (xblk m c t) (wkvblk m c t) (bkvblk m c t) := by
  have s := sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0)
      (xblk m c t) (wqblk m c t) (wkvblk m c t) (bqblk m c t) (bkvblk m c t) (eblk m c t)
  rw [outsAt0_A m c t h0]
  dsimp only
  exact s

/-- After a point that rebuilds it, the value scratch is the rebuilt one of that point's blocks. -/
theorem scratchV (t : Fin cfg0.N) (h0 : t.val % 2 = 0) :
    (outsAt0 m c t.val t.isLt).2.2 = vBuild (xblk m c t) (wkvblk m c t) (bkvblk m c t) := by
  have s := sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0)
      (xblk m c t) (wqblk m c t) (wkvblk m c t) (bqblk m c t) (bkvblk m c t) (eblk m c t)
  rw [outsAt0_A m c t h0]
  dsimp only
  exact s

/-- The rebuilt key scratch of a point holds the key projections of the point's batch. -/
theorem kScratch_apply (t : Fin cfg0.N) (k : Fin 2048) (d : Fin 512) :
    kBuild (xblk m c t) (wkvblk m c t) (bkvblk m c t) (ix2 k d) = Cert.Spec.proj (X m c) (Wk m c) (bk m c) (batch t) k d := by
  refine (kBuild_apply _ _ _ k d).trans ?_
  unfold rowProj Cert.Spec.proj
  exact add_congr (Finset.sum_congr rfl fun cc _ => mul_congr (xblk_apply m c t k cc) (wkvblk_apply_lo m c t cc d))
    (bkvblk_apply_lo m c t d)

/-- The rebuilt value scratch of a point holds the value projections of the point's batch. -/
theorem vScratch_apply (t : Fin cfg0.N) (k : Fin 2048) (d : Fin 512) :
    vBuild (xblk m c t) (wkvblk m c t) (bkvblk m c t) (ix2 k d) = Cert.Spec.proj (X m c) (Wv m c) (bv m c) (batch t) k d := by
  refine (vBuild_apply _ _ _ k d).trans ?_
  unfold rowProj Cert.Spec.proj
  exact add_congr (Finset.sum_congr rfl fun cc _ => mul_congr (xblk_apply m c t k cc) (wkvblk_apply_hi m c t cc d))
    (bkvblk_apply_hi m c t d)

/-- The query rows a point loads are rows 1024 (t mod 2) .. of its batch. -/
theorem xq_apply (t : Fin cfg0.N) (r : Fin 1024) (cc : Fin 512) (h : 1024 * (t.val % 2) + r.val < 2048) :
    View.ld (xblk m c t) (Rect.unit (s := S1x2048x512) (k0_off1 (grid0.coords t)) S1x1024x512.size (k0_off1_inb (grid0.coords t))) (ix3 0 r cc)
      = X m c (ix3 (batch t) ⟨1024 * (t.val % 2) + r.val, h⟩ cc) := by
  obtain ⟨-, -, -, ic⟩ := idx6 t
  have hoff : k0_off1 (grid0.coords t) = ![0, 1024 * (t.val % 2), 0] := by rw [k0_off1_eq, ic]
  exact (ld_rows1024 (xblk m c t) _ _ hoff _ r cc h).trans (xblk_apply m c t _ cc)

/-! ## What a point writes back -/

/-- What point t writes back, at (0, r, d), is the specification at the point's batch, row 1024 (t mod 2) + r, column d. -/
theorem flushed_apply (hreal : (∀ i, Cert.Spec.IsReal (X m c i)) ∧ (∀ i, Cert.Spec.IsReal (E m c i)) ∧ (∀ i, Cert.Spec.IsReal (Wq m c i)) ∧ (∀ i, Cert.Spec.IsReal (bq m c i))
      ∧ (∀ i, Cert.Spec.IsReal (Wk m c i)) ∧ (∀ i, Cert.Spec.IsReal (bk m c i)) ∧ (∀ i, Cert.Spec.IsReal (Wv m c i)) ∧ (∀ i, Cert.Spec.IsReal (bv m c i)))
    (t : Fin cfg0.N) (r : Fin 1024) (d : Fin 512) (h : 1024 * (t.val % 2) + r.val < 2048) :
    ((dats m 0 c).flushed 6 t : S1x1024x512.Idx → EReal) (ix3 0 r d)
      = Cert.Spec.G (X m c) (E m c) (Wq m c) (bq m c) (Wk m c) (bk m c) (Wv m c) (bv m c) (ix3 (batch t) ⟨1024 * (t.val % 2) + r.val, h⟩ d) := by
  obtain ⟨hX, hE, hWq, hbq, hWk, hbk, hWv, hbv⟩ := hreal
  by_cases h0 : t.val % 2 = 0
  · have hA := out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0)
      (xblk m c t) (wqblk m c t) (wkvblk m c t) (bqblk m c t) (bkvblk m c t) (eblk m c t)
    rw [Value.flushed6_A m c t h0]
    refine (congrFun hA (ix3 0 r d)).trans ?_
    exact attn_spec (X m c) (E m c) (Wq m c) (Wk m c) (Wv m c) (bq m c) (bk m c) (bv m c) hX hE hWq hbq hWk hbk hWv hbv
      (batch t) (1024 * (t.val % 2)) (by omega) _ _ _ _ _ _
      (fun r cc h => xq_apply m c t r cc h) (fun cc d => wqblk_apply m c t cc d) (fun d => bqblk_apply m c t d)
      (kScratch_apply m c t) (vScratch_apply m c t) (eblk_apply m c t) r d h
  · have hlt : t.val - 1 < cfg0.N := Nat.lt_of_le_of_lt (Nat.sub_le _ _) t.isLt
    have h1 : (⟨t.val - 1, hlt⟩ : Fin cfg0.N).val % 2 = 0 := by show (t.val - 1) % 2 = 0; omega
    have hb : batch (⟨t.val - 1, hlt⟩ : Fin cfg0.N) = batch t := Fin.ext (by show (t.val - 1) / 2 = t.val / 2; omega)
    have hB := out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun hc => h0 ((hcond0_0 t).mp hc))
      (xblk m c t) (wqblk m c t) (wkvblk m c t) (bqblk m c t) (bkvblk m c t) (eblk m c t)
      (outsAt0 m c (t.val - 1) hlt).2.1 (outsAt0 m c (t.val - 1) hlt).2.2
    rw [Value.flushed6_B m c t h0]
    refine (congrFun hB (ix3 0 r d)).trans ?_
    exact attn_spec (X m c) (E m c) (Wq m c) (Wk m c) (Wv m c) (bq m c) (bk m c) (bv m c) hX hE hWq hbq hWk hbk hWv hbv
      (batch t) (1024 * (t.val % 2)) (by omega) _ _ _ _ _ _
      (fun r cc h => xq_apply m c t r cc h) (fun cc d => wqblk_apply m c t cc d) (fun d => bqblk_apply m c t d)
      (fun k d => (congrFun (scratchK m c ⟨t.val - 1, hlt⟩ h1) (ix2 k d)).trans ((kScratch_apply m c _ k d).trans
        (congrArg (fun b => Cert.Spec.proj (X m c) (Wk m c) (bk m c) b k d) hb)))
      (fun k d => (congrFun (scratchV m c ⟨t.val - 1, hlt⟩ h1) (ix2 k d)).trans ((vScratch_apply m c _ k d).trans
        (congrArg (fun b => Cert.Spec.proj (X m c) (Wv m c) (bv m c) b k d) hb)))
      (eblk_apply m c t) r d h

/-- WHAT POINT t WRITES BACK is block t of the specification of the argument arrays. -/
theorem flushed_eq (hreal : (∀ i, Cert.Spec.IsReal (X m c i)) ∧ (∀ i, Cert.Spec.IsReal (E m c i)) ∧ (∀ i, Cert.Spec.IsReal (Wq m c i)) ∧ (∀ i, Cert.Spec.IsReal (bq m c i))
      ∧ (∀ i, Cert.Spec.IsReal (Wk m c i)) ∧ (∀ i, Cert.Spec.IsReal (bk m c i)) ∧ (∀ i, Cert.Spec.IsReal (Wv m c i)) ∧ (∀ i, Cert.Spec.IsReal (bv m c i)))
    (t : Fin cfg0.N) :
    (dats m 0 c).flushed 6 t = ((cfg0.win 6).blk t).view.read (Elt Ideal)
      (Cert.Spec.G (X m c) (E m c) (Wq m c) (bq m c) (Wk m c) (bk m c) (Wv m c) (bv m c)) := by
  obtain ⟨i0, i1, i2, -⟩ := idx6 t
  funext y
  obtain ⟨z, r, d, rfl⟩ : ∃ (z : Fin 1) (r : Fin 1024) (d : Fin 512), y = ix3 z r d :=
    ⟨(y : S1x1024x512.Idx) 0, (y : S1x1024x512.Idx) 1, (y : S1x1024x512.Idx) 2, eq_ix3 (y : S1x1024x512.Idx)⟩
  obtain rfl : z = 0 := Subsingleton.elim _ _
  have h : 1024 * (t.val % 2) + r.val < 2048 := by have := r.isLt; omega
  rw [View.read_apply]
  refine (flushed_apply m c hreal t r d h).trans
    (congrArg (Cert.Spec.G (X m c) (E m c) (Wq m c) (bq m c) (Wk m c) (bk m c) (Wv m c) (bv m c)) ?_)
  funext a
  apply Fin.ext
  match a with
  | ⟨0, _⟩ => show t.val / 2 = win0_6.index t 0 * 1 + 1 * 0; rw [i0]; omega
  | ⟨1, _⟩ => show 1024 * (t.val % 2) + r.val = win0_6.index t 1 * 1024 + 1 * r.val; rw [i1]; omega
  | ⟨2, _⟩ => show d.val = win0_6.index t 2 * 512 + 1 * d.val; rw [i2]; omega

/-! ## From the blocks to the array -/

/-- An index of the result array is in point t's block iff each coordinate is in the block's range on its axis. -/
theorem mem_blk6 (t : Fin cfg0.N) (i : S8x2048x512.Idx) :
    i ∈ ((cfg0.win 6).blk t).view.set ↔ ∀ a : Fin 3, win0_6.index t a * S1x1024x512.size a ≤ (i a).val ∧ (i a).val < win0_6.index t a * S1x1024x512.size a + S1x1024x512.size a := by
  show i ∈ ((View.whole main_v19).slice (win0_6.rect t)).set ↔ _
  rw [View.set_slice_whole, Rect.mem_set_unit]
  exact Iff.rfl

/-- Every entry (b, q, d) of the result array is in the block of the point 2 b + q / 1024. -/
theorem cover6 (i : S8x2048x512.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 512 := (i 2).isLt
  have hN : cfg0.N = 16 := N_0
  refine ⟨⟨2 * (i 0).val + (i 1).val / 1024, by omega⟩, flush0_6 _, ?_⟩
  rw [mem_blk6]
  obtain ⟨e0, e1, e2, -⟩ := idx6 ⟨2 * (i 0).val + (i 1).val / 1024, by omega⟩
  intro a
  match a with
  | ⟨0, _⟩ =>
    show win0_6.index _ (0 : Fin 3) * 1 ≤ (i 0).val ∧ (i 0).val < win0_6.index _ (0 : Fin 3) * 1 + 1
    rw [e0]; dsimp only; omega
  | ⟨1, _⟩ =>
    show win0_6.index _ (1 : Fin 3) * 1024 ≤ (i 1).val ∧ (i 1).val < win0_6.index _ (1 : Fin 3) * 1024 + 1024
    rw [e1]; dsimp only; omega
  | ⟨2, _⟩ =>
    show win0_6.index _ (2 : Fin 3) * 512 ≤ (i 2).val ∧ (i 2).val < win0_6.index _ (2 : Fin 3) * 512 + 512
    rw [e2]; omega

/-- The result array after the run is G of the arguments. -/
theorem final (hreal : (∀ i, Cert.Spec.IsReal (X m c i)) ∧ (∀ i, Cert.Spec.IsReal (E m c i)) ∧ (∀ i, Cert.Spec.IsReal (Wq m c i)) ∧ (∀ i, Cert.Spec.IsReal (bq m c i))
      ∧ (∀ i, Cert.Spec.IsReal (Wk m c i)) ∧ (∀ i, Cert.Spec.IsReal (bk m c i)) ∧ (∀ i, Cert.Spec.IsReal (Wv m c i)) ∧ (∀ i, Cert.Spec.IsReal (bv m c i))) :
    (dats m 0 c).arrAt 6 cfg0.N = Cert.Spec.G (X m c) (E m c) (Wq m c) (bq m c) (Wk m c) (bk m c) (Wv m c) (bv m c) :=
  (dats m 0 c).arrAt_eq_of_cover 6 (Cert.Spec.G (X m c) (E m c) (Wq m c) (bq m c) (Wk m c) (bk m c) (Wv m c) (bv m c))
    (fun t _ => flushed_eq m c hreal t) cover6

end Run

theorem run_G (m : (ℓ : Loc nD τ sig) → Buf (Elt Ideal) ℓ) (ρ : Dev nD → PrngReg)
    (hreal : ∀ c : Dev nD, (∀ i, Cert.Spec.IsReal (X m c i)) ∧ (∀ i, Cert.Spec.IsReal (E m c i)) ∧ (∀ i, Cert.Spec.IsReal (Wq m c i)) ∧ (∀ i, Cert.Spec.IsReal (bq m c i))
      ∧ (∀ i, Cert.Spec.IsReal (Wk m c i)) ∧ (∀ i, Cert.Spec.IsReal (bk m c i)) ∧ (∀ i, Cert.Spec.IsReal (Wv m c i)) ∧ (∀ i, Cert.Spec.IsReal (bv m c i))) :
    θ_run defs (onTc (τ := τ) (main (F := Ideal))) ⟨m, fun _ => 0, ρ⟩ fun r => ∀ c : Dev nD,
      r.2.mem ((c : Thread nD τ).loc main_v19) = Cert.Spec.G (X m c) (E m c) (Wq m c) (bq m c) (Wk m c) (bk m c) (Wv m c) (bv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hreal c)), (h c).2⟩) (Cert.KernelIdeal.Value.run_blocks m ρ)

end Cert.KernelIdeal.Final

end
-- ==== Proof.lean ====
/-
  The attention layer's kernel against its jnp reference, over the extended reals.

  Both programs compute, for every batch b, query row q and feature d, the softmax-weighted average of the value rows,
  (sum over keys k of exp (s k) * V (k, d)) / (sum over k of exp (s k)), with the scores
  s k = (Q q . K k) * logistic (e k) * c and Q, K, V the three affine projections of the input: the function G of the
  specification. The kernel reaches it by an online softmax over four blocks of 512 keys from a finite starting maximum,
  the reference by the two-pass softmax; with every argument a real number (the precondition) both quotients are the
  same real number, because the factor exp (-m) by which the two normalisations differ is never zero and cancels.
  The kernel's frames are the generated ones, the reference's frame is its generated run with the result dropped, and
  the idealization rewrote nothing.
-/
import proofs.«414030_j51513837748782_3_alg».proof.Defs
import proofs.«414030_j51513837748782_3_alg».proof.Proof.Gen.Kernel.Frame
import proofs.«414030_j51513837748782_3_alg».proof.Proof.Gen.KernelIdeal.Frame
import proofs.«414030_j51513837748782_3_alg».proof.Proof.Gen.ReferenceIdeal.Run
import proofs.«414030_j51513837748782_3_alg».proof.Proof.Gen.ReferenceIdeal.Read
import proofs.«414030_j51513837748782_3_alg».proof.Proof.Gen.Pre_finite_inputs
import proofs.«414030_j51513837748782_3_alg».proof.Proof.Finite
import proofs.«414030_j51513837748782_3_alg».proof.Proof.RefIsSpec
import proofs.«414030_j51513837748782_3_alg».proof.Proof.KernelFinal

noncomputable section

open Idealize.ShloMosaic Idealize.ShloMosaic.TcCoe Idealize.SL.Sem

namespace Cert.Proof

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the kernel's result array ends at G of the arguments (the online softmax), and the
    reference's at the same G of the same arguments (the two-pass softmax). -/
theorem algebraic : Cert.algebraic_KernelIdeal_ReferenceIdeal := by
  intro m ρ m' ρ' hpre hagree
  have hreal := fun c : Dev Cert.KernelIdeal.nD => Cert.Finite.real_of_pre _ _ _ _ _ _ _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Final.run_G m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  obtain ⟨h0, h1, h2, h3, h4, h5, h6, h7⟩ := hreal c
  exact Cert.RefIsSpec.ref_eq_G _ _ _ _ _ _ _ _ h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
